-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  IdealRules.named_const.Statement Cert.KernelIdeal.κ "c_2_3" .f32 0x3F2AAAAB#32 ((2 / 3 : ℝ) : EReal)

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v24)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v24) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v36) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S600000 : Shape := ⟨1, ![600000]⟩
abbrev S128x128 : Shape := ⟨2, ![128, 128]⟩
abbrev S128 : Shape := ⟨1, ![128]⟩
abbrev S_ : Shape := ⟨0, ![]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S600000 : S_.BroadcastsInDim S600000 (![] : Fin 0 → Fin S600000.rank)
  reducesTo_S600000_S_d0 : S600000.ReducesTo [0] S_
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_

variable [Facts]

def fn_part1 {F : FTy → Type} [FloatOps F] (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  main_v18

def fn {F : FTy → Type} [FloatOps F] (main_arg0 : FVec F S50000x128 .f32) (main_arg1 : IVec S600000 32) (main_arg2 : IVec S600000 32) (main_arg3 : FVec F S600000 .f32) (main_arg4 : FVec F S128x128 .f32) (main_arg5 : FVec F S128 .f32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S600000 .f32 := Host.absf main_arg3
  let main_cst_0 : FVec F S_ .f32 := constant S_ .f32 0x7F800000#32
  let main_v5 : FVec F S600000 .f32 := broadcastInDim S600000 ![] bcast_S_S600000 main_cst_0
  let main_v6 : IVec S600000 1 := cmpf .olt main_v4 main_v5
  let main_c_1 : IVec S_ 1 := constantI S_ 1 1#1
  let main_v7 : IVec S_ 1 := (fun x v => Host.reduce IntOp.andi x v reducesTo_S600000_S_d0 h_S_) main_v6 main_c_1
  let main_v8 : IVec S_ 1 := andi main_v3 main_v7
  let main_v9 : FVec F S128x128 .f32 := Host.absf main_arg4
  let main_cst_2 : FVec F S_ .f32 := constant S_ .f32 0x7F800000#32
  let main_v10 : FVec F S128x128 .f32 := broadcastInDim S128x128 ![] bcast_S_S128x128 main_cst_2
  let main_v11 : IVec S128x128 1 := cmpf .olt main_v9 main_v10
  let main_c_3 : IVec S_ 1 := constantI S_ 1 1#1
  let main_v12 : IVec S_ 1 := (fun x v => Host.reduce IntOp.andi x v reducesTo_S128x128_S_d0_1 h_S_) main_v11 main_c_3
  let main_v13 : IVec S_ 1 := andi main_v8 main_v12
  let main_v14 : FVec F S128 .f32 := Host.absf main_arg5
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_v13 main_v16
-- ==== Kernel.lean ====
abbrev S50000x128 : Shape := ⟨2, ![50000, 128]⟩
abbrev S600000 : Shape := ⟨1, ![600000]⟩
abbrev S128x128 : Shape := ⟨2, ![128, 128]⟩
abbrev S128 : Shape := ⟨1, ![128]⟩
abbrev S_ : Shape := ⟨0, ![]⟩
abbrev S50000 : Shape := ⟨1, ![50000]⟩
abbrev S600000x1 : Shape := ⟨2, ![600000, 1]⟩
abbrev S50000x1 : Shape := ⟨2, ![50000, 1]⟩
abbrev S1x128 : Shape := ⟨2, ![1, 128]⟩
abbrev S5000x128 : Shape := ⟨2, ![5000, 128]⟩
abbrev S5000x1 : Shape := ⟨2, ![5000, 1]⟩
abbrev S600000x128 : Shape := ⟨2, ![600000, 128]⟩

abbrev nBuf : Space → Nat
  | .hbm => 38
  | .vmem => 20
  | .smem => 0
  | _ => 0

abbrev bufTy : (tb : Table) → Fin (tcTables nBuf tb) → BufTy
  | .hbm, ⟨0, _⟩ => ⟨S50000x128, .f32⟩
  | .hbm, ⟨1, _⟩ => ⟨S600000, .i32⟩
  | .hbm, ⟨2, _⟩ => ⟨S600000, .i32⟩
  | .hbm, ⟨3, _⟩ => ⟨S600000, .f32⟩
  | .hbm, ⟨4, _⟩ => ⟨S128x128, .f32⟩
  | .hbm, ⟨5, _⟩ => ⟨S128, .f32⟩
  | .hbm, ⟨6, _⟩ => ⟨S_, .f32⟩
  | .hbm, ⟨7, _⟩ => ⟨S50000, .f32⟩
  | .hbm, ⟨8, _⟩ => ⟨S600000x1, .i32⟩
  | .hbm, ⟨9, _⟩ => ⟨S50000, .f32⟩
  | .hbm, ⟨10, _⟩ => ⟨S_, .f32⟩
  | .hbm, ⟨11, _⟩ => ⟨S50000, .f32⟩
  | .hbm, ⟨12, _⟩ => ⟨S50000, .f32⟩
  | .hbm, ⟨13, _⟩ => ⟨S_, .f32⟩
  | .hbm, ⟨14, _⟩ => ⟨S50000, .f32⟩
  | .hbm, ⟨15, _⟩ => ⟨S50000, .f32⟩
  | .hbm, ⟨16, _⟩ => ⟨S50000x1, .f32⟩
  | .hbm, ⟨17, _⟩ => ⟨S128x128, .f32⟩
  | .hbm, ⟨18, _⟩ => ⟨S1x128, .f32⟩
  | .hbm, ⟨19, _⟩ => ⟨S50000x128, .f32⟩
  | .hbm, ⟨20, _⟩ => ⟨S50000x128, .f32⟩
  | .hbm, ⟨21, _⟩ => ⟨S_, .i32⟩
  | .hbm, ⟨22, _⟩ => ⟨S600000, .i32⟩
  | .hbm, ⟨23, _⟩ => ⟨S600000, .i1⟩
  | .hbm, ⟨24, _⟩ => ⟨S_, .i32⟩
  | .hbm, ⟨25, _⟩ => ⟨S600000, .i32⟩
  | .hbm, ⟨26, _⟩ => ⟨S600000, .i32⟩
  | .hbm, ⟨27, _⟩ => ⟨S600000, .i32⟩
  | .hbm, ⟨28, _⟩ => ⟨S600000x1, .i32⟩
  | .hbm, ⟨29, _⟩ => ⟨S600000x128, .f32⟩
  | .hbm, ⟨30, _⟩ => ⟨S600000x1, .f32⟩
  | .hbm, ⟨31, _⟩ => ⟨S600000x128, .f32⟩
  | .hbm, ⟨32, _⟩ => ⟨S600000x128, .f32⟩
  | .hbm, ⟨33, _⟩ => ⟨S_, .f32⟩
  | .hbm, ⟨34, _⟩ => ⟨S50000x128, .f32⟩
  | .hbm, ⟨35, _⟩ => ⟨S600000x1, .i32⟩
  | .hbm, ⟨36, _⟩ => ⟨S50000x128, .f32⟩
  | .hbm, ⟨37, _⟩ => ⟨S50000x128, .f32⟩
  | .local _ .vmem, ⟨0, _⟩ => ⟨S5000x128, .f32⟩
  | .local _ .vmem, ⟨1, _⟩ => ⟨S5000x128, .f32⟩
  | .local _ .vmem, ⟨2, _⟩ => ⟨S128x128, .f32⟩
  | .local _ .vmem, ⟨3, _⟩ => ⟨S1x128, .f32⟩
  | .local _ .vmem, ⟨4, _⟩ => ⟨S5000x1, .f32⟩
  | .local _ .vmem, ⟨5, _⟩ => ⟨S5000x1, .f32⟩
  | .local _ .vmem, ⟨6, _⟩ => ⟨S5000x128, .f32⟩
  | .local _ .vmem, ⟨7, _⟩ => ⟨S5000x128, .f32⟩
  | .local _ .vmem, ⟨8, _⟩ => ⟨S5000x128, .f32⟩
  | .local _ .vmem, ⟨9, _⟩ => ⟨S5000x128, .f32⟩
  | .local _ .vmem, ⟨10, _⟩ => ⟨S5000x128, .f32⟩
  | .local _ .vmem, ⟨11, _⟩ => ⟨S5000x128, .f32⟩
  | .local _ .vmem, ⟨12, _⟩ => ⟨S5000x128, .f32⟩
  | .local _ .vmem, ⟨13, _⟩ => ⟨S5000x128, .f32⟩
  | .local _ .vmem, ⟨14, _⟩ => ⟨S5000x128, .f32⟩
  | .local _ .vmem, ⟨15, _⟩ => ⟨S5000x128, .f32⟩
  | .local _ .vmem, ⟨16, _⟩ => ⟨S5000x1, .f32⟩
  | .local _ .vmem, ⟨17, _⟩ => ⟨S5000x1, .f32⟩
  | .local _ .vmem, ⟨18, _⟩ => ⟨S5000x128, .f32⟩
  | .local _ .vmem, ⟨19, _⟩ => ⟨S5000x128, .f32⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_cst : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_cst_0 : Ref sig .tc := ⟨.hbm, 10, rfl⟩
abbrev main_v3 : Ref sig .tc := ⟨.hbm, 11, rfl⟩
abbrev main_v4 : Ref sig .tc := ⟨.hbm, 12, rfl⟩
abbrev main_cst_1 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10_0 : Ref sig .tc := ⟨.hbm, 19, rfl⟩
abbrev main_v10_1 : Ref sig .tc := ⟨.hbm, 20, rfl⟩
abbrev main_c : Ref sig .tc := ⟨.hbm, 21, rfl⟩
abbrev main_v11 : Ref sig .tc := ⟨.hbm, 22, rfl⟩
abbrev main_v12 : Ref sig .tc := ⟨.hbm, 23, rfl⟩
abbrev main_c_2 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_cst_3 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc1_stg0_0 : Ref sig .tc := ⟨.vmem, 10, rfl⟩
abbrev cc1_stg0_1 : Ref sig .tc := ⟨.vmem, 11, rfl⟩
abbrev cc1_stg1_0 : Ref sig .tc := ⟨.vmem, 12, rfl⟩
abbrev cc1_stg1_1 : Ref sig .tc := ⟨.vmem, 13, rfl⟩
abbrev cc1_stg2_0 : Ref sig .tc := ⟨.vmem, 14, rfl⟩
abbrev cc1_stg2_1 : Ref sig .tc := ⟨.vmem, 15, rfl⟩
abbrev cc1_stg3_0 : Ref sig .tc := ⟨.vmem, 16, rfl⟩
abbrev cc1_stg3_1 : Ref sig .tc := ⟨.vmem, 17, rfl⟩
abbrev cc1_stg4_0 : Ref sig .tc := ⟨.vmem, 18, rfl⟩
abbrev cc1_stg4_1 : Ref sig .tc := ⟨.vmem, 19, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem5_1 : DmaSem sig := 9
abbrev cc1_sem0_0 : DmaSem sig := 10
abbrev cc1_sem0_1 : DmaSem sig := 11
abbrev cc1_sem1_0 : DmaSem sig := 12
abbrev cc1_sem1_1 : DmaSem sig := 13
abbrev cc1_sem2_0 : DmaSem sig := 14
abbrev cc1_sem2_1 : DmaSem sig := 15
abbrev cc1_sem3_0 : DmaSem sig := 16
abbrev cc1_sem3_1 : DmaSem sig := 17
abbrev cc1_sem4_0 : DmaSem sig := 18
abbrev cc1_sem4_1 : DmaSem sig := 19

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S5000x1 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S5000x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S5000x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_4 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S5000x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S5000x128 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 2 → Memref sig .tc .vmem S5000x1 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev stage1_4 : Fin 2 → Memref sig .tc .vmem S5000x128 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

class Facts₀ : Prop where
  bcast_S_S50000 : S_.BroadcastsInDim S50000 (![] : Fin 0 → Fin S50000.rank)
  bcast_S600000_S600000x1_0 : S600000.BroadcastsInDim S600000x1 (![0] : Fin 1 → Fin S600000x1.rank)
  shapeCasts_S50000_S50000x1 : S50000.ShapeCasts S50000x1
  transposes_S128x128_S128x128_1_0 : S128x128.Transposes [1, 0] S128x128
  shapeCasts_S128_S1x128 : S128.ShapeCasts S1x128
  inb_S5000x128_S5000x128_0_0 : ∀ a, (![0, 0] : Fin 2 → Nat) a + S5000x128.size a ≤ S5000x128.size a
  h_S5000x128 : 0 < S5000x128.numel
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  shapeCasts_S128x128_S128x128 : S128x128.ShapeCasts S128x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S5000x128 : S1x128.Broadcasts S5000x128
  inb_S5000x1_S5000x1_0_0 : ∀ a, (![0, 0] : Fin 2 → Nat) a + S5000x1.size a ≤ S5000x1.size a
  h_S5000x1 : 0 < S5000x1.numel
  shapeCasts_S5000x1_S5000x1 : S5000x1.ShapeCasts S5000x1
  broadcasts_S5000x1_S5000x128 : S5000x1.Broadcasts S5000x128
  bcast_S_S600000 : S_.BroadcastsInDim S600000 (![] : Fin 0 → Fin S600000.rank)
  bcast_S600000x1_S600000x128_0_1 : S600000x1.BroadcastsInDim S600000x128 (![0, 1] : Fin 2 → Fin S600000x128.rank)
  bcast_S_S50000x128 : S_.BroadcastsInDim S50000x128 (![] : Fin 0 → Fin S50000x128.rank)
  shapeCasts_S5000x128_S5000x128 : S5000x128.ShapeCasts S5000x128
  scatter_S50000_S600000x1_S600000_n_0_0_1_wf : ScatterDims.WF S50000 S600000x1 S600000 [] [0] [0] 1
  dot_S5000x128_S128x128_S5000x128_1_0_0_1_n_n_wf : DotDims.WF S5000x128 S128x128 S5000x128 [1] [0] [0] [1] [] []
  gather_S50000x128_S600000x1_S600000x128_1_0_n_n_0_1_1128_wf : GatherDims.WF S50000x128 S600000x1 S600000x128 [1] [0] [] [0] [] 1 ![1, 128]
  scatter_S50000x128_S600000x1_S600000x128_1_0_0_1_wf : ScatterDims.WF S50000x128 S600000x1 S600000x128 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S50000x128.size a
  hwx0_0 : ∀ i : grid0.Coords, EltTy.bits .f32 = 32 ∨ (Rect.block (s := S50000x128) S5000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x128.size a ≤ S128x128.size a
  hwx0_1 : ∀ i : grid0.Coords, EltTy.bits .f32 = 32 ∨ (Rect.block (s := S128x128) S128x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x128.size a ≤ S1x128.size a
  hwx0_2 : ∀ i : grid0.Coords, EltTy.bits .f32 = 32 ∨ (Rect.block (s := S1x128) S1x128.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S5000x1.size a ≤ S50000x1.size a
  hwx0_3 : ∀ i : grid0.Coords, EltTy.bits .f32 = 32 ∨ (Rect.block (s := S50000x1) S5000x1.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S5000x128.size a ≤ S50000x128.size a
  hwx0_4 : ∀ i : grid0.Coords, EltTy.bits .f32 = 32 ∨ (Rect.block (s := S50000x128) S5000x128.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S5000x128.size a ≤ S50000x128.size a
  hwx0_5 : ∀ i : grid0.Coords, EltTy.bits .f32 = 32 ∨ (Rect.block (s := S50000x128) S5000x128.size (cc0_transform_5 i) (hinb0_5 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S50000x128.size a
  hwx1_0 : ∀ i : grid1.Coords, EltTy.bits .f32 = 32 ∨ (Rect.block (s := S50000x128) S5000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5000x128.size a ≤ S50000x128.size a
  hwx1_1 : ∀ i : grid1.Coords, EltTy.bits .f32 = 32 ∨ (Rect.block (s := S50000x128) S5000x128.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S5000x128.size a ≤ S50000x128.size a
  hwx1_2 : ∀ i : grid1.Coords, EltTy.bits .f32 = 32 ∨ (Rect.block (s := S50000x128) S5000x128.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S5000x1.size a ≤ S50000x1.size a
  hwx1_3 : ∀ i : grid1.Coords, EltTy.bits .f32 = 32 ∨ (Rect.block (s := S50000x1) S5000x1.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S5000x128.size a ≤ S50000x128.size a
  hwx1_4 : ∀ i : grid1.Coords, EltTy.bits .f32 = 32 ∨ (Rect.block (s := S50000x128) S5000x128.size (cc1_transform_4 i) (hinb1_4 i)).WholeWords (EltTy.packing .f32)

variable [Facts₀]

def scatter_S50000_S600000x1_S600000_n_0_0_1 : ScatterDims S50000 S600000x1 S600000 where
  updateWindowDims := []
  insertedWindowDims := [0]
  scatterDimsToOperandDims := [0]
  indexVectorDim := 1
  wf := scatter_S50000_S600000x1_S600000_n_0_0_1_wf
def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf
def gather_S50000x128_S600000x1_S600000x128_1_0_n_n_0_1_1128 : GatherDims S50000x128 S600000x1 S600000x128 where
  offsetDims := [1]
  collapsedSliceDims := [0]
  operandBatchingDims := []
  startIndicesBatchingDims := []
  startIndexMap := [0]
  indexVectorDim := 1
  sliceSizes := ![1, 128]
  wf := gather_S50000x128_S600000x1_S600000x128_1_0_n_n_0_1_1128_wf
def scatter_S50000x128_S600000x1_S600000x128_1_0_0_1 : ScatterDims S50000x128 S600000x1 S600000x128 where
  updateWindowDims := [1]
  insertedWindowDims := [0]
  scatterDimsToOperandDims := [0]
  indexVectorDim := 1
  wf := scatter_S50000x128_S600000x1_S600000x128_1_0_0_1_wf

abbrev win0_0 : Pipeline.Window sig grid0 :=
  Pipeline.Window.ofSpec (Memref.whole main_arg0) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v8) S128x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v9) S1x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v7) S5000x1.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v10_0) S5000x128.size cc0_transform_4 reads0_4 true false 2 stage0_4 sem0_4
    hrank0 hreads0_4 hinb0_4 nbuf0_4 (Memref.isWhole_whole _) hwx0_4 hstage0_4

abbrev win0_5 : Pipeline.Window sig grid0 :=
  Pipeline.Window.ofSpec (Memref.whole main_v10_1) S5000x128.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev win1_0 : Pipeline.Window sig grid1 :=
  Pipeline.Window.ofSpec (Memref.whole main_v23) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v10_1) S5000x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v10_0) S5000x128.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v7) S5000x1.size cc1_transform_3 reads1_3 false false 2 stage1_3 sem1_3
    hrank1 hreads1_3 hinb1_3 nbuf1_3 (Memref.isWhole_whole _) hwx1_3 hstage1_3

abbrev win1_4 : Pipeline.Window sig grid1 :=
  Pipeline.Window.ofSpec (Memref.whole main_v24) S5000x128.size cc1_transform_4 reads1_4 true false 2 stage1_4 sem1_4
    hrank1 hreads1_4 hinb1_4 nbuf1_4 (Memref.isWhole_whole _) hwx1_4 hstage1_4

abbrev win1 : Fin 5 → Pipeline.Window sig grid1 := fun | 0 => win1_0 | 1 => win1_1 | 2 => win1_2 | 3 => win1_3 | 4 => win1_4 | ⟨_ + 5, h⟩ => absurd h (Nat.not_lt.2 (Nat.le_add_left _ _))
abbrev spec1 : Fin 5 → Pipeline.WinSpec sig grid1.rank := fun w => (win1 w).toWinSpec

class Facts : Prop extends Facts₀ where

variable [Facts]
-- ==== ReferenceIdeal.lean ====
abbrev S50000x128 : Shape := ⟨2, ![50000, 128]⟩
abbrev S600000 : Shape := ⟨1, ![600000]⟩
abbrev S128x128 : Shape := ⟨2, ![128, 128]⟩
abbrev S128 : Shape := ⟨1, ![128]⟩
abbrev S1x128 : Shape := ⟨2, ![1, 128]⟩
abbrev S_ : Shape := ⟨0, ![]⟩
abbrev S50000 : Shape := ⟨1, ![50000]⟩
abbrev S600000x1 : Shape := ⟨2, ![600000, 1]⟩
abbrev S50000x1 : Shape := ⟨2, ![50000, 1]⟩
abbrev S600000x128 : Shape := ⟨2, ![600000, 128]⟩

abbrev nBuf : Space → Nat
  | .hbm => 51
  | .vmem => 0
  | .smem => 0
  | _ => 0

abbrev bufTy : (tb : Table) → Fin (tcTables nBuf tb) → BufTy
  | .hbm, ⟨0, _⟩ => ⟨S50000x128, .f32⟩
  | .hbm, ⟨1, _⟩ => ⟨S600000, .i32⟩
  | .hbm, ⟨2, _⟩ => ⟨S600000, .i32⟩
  | .hbm, ⟨3, _⟩ => ⟨S600000, .f32⟩
  | .hbm, ⟨4, _⟩ => ⟨S128x128, .f32⟩
  | .hbm, ⟨5, _⟩ => ⟨S128, .f32⟩
  | .hbm, ⟨6, _⟩ => ⟨S128x128, .f32⟩
  | .hbm, ⟨7, _⟩ => ⟨S50000x128, .f32⟩
  | .hbm, ⟨8, _⟩ => ⟨S1x128, .f32⟩
  | .hbm, ⟨9, _⟩ => ⟨S50000x128, .f32⟩
  | .hbm, ⟨10, _⟩ => ⟨S50000x128, .f32⟩
  | .hbm, ⟨11, _⟩ => ⟨S_, .f32⟩
  | .hbm, ⟨12, _⟩ => ⟨S50000, .f32⟩
  | .hbm, ⟨13, _⟩ => ⟨S600000x1, .i32⟩
  | .hbm, ⟨14, _⟩ => ⟨S50000, .f32⟩
  | .hbm, ⟨15, _⟩ => ⟨S_, .f32⟩
  | .hbm, ⟨16, _⟩ => ⟨S50000, .f32⟩
  | .hbm, ⟨17, _⟩ => ⟨S50000, .f32⟩
  | .hbm, ⟨18, _⟩ => ⟨S_, .f32⟩
  | .hbm, ⟨19, _⟩ => ⟨S50000, .f32⟩
  | .hbm, ⟨20, _⟩ => ⟨S50000, .f32⟩
  | .hbm, ⟨21, _⟩ => ⟨S50000x1, .f32⟩
  | .hbm, ⟨22, _⟩ => ⟨S50000x128, .f32⟩
  | .hbm, ⟨23, _⟩ => ⟨S50000x128, .f32⟩
  | .hbm, ⟨24, _⟩ => ⟨S600000x1, .f32⟩
  | .hbm, ⟨25, _⟩ => ⟨S_, .i32⟩
  | .hbm, ⟨26, _⟩ => ⟨S600000, .i32⟩
  | .hbm, ⟨27, _⟩ => ⟨S600000, .i1⟩
  | .hbm, ⟨28, _⟩ => ⟨S_, .i32⟩
  | .hbm, ⟨29, _⟩ => ⟨S600000, .i32⟩
  | .hbm, ⟨30, _⟩ => ⟨S600000, .i32⟩
  | .hbm, ⟨31, _⟩ => ⟨S600000, .i32⟩
  | .hbm, ⟨32, _⟩ => ⟨S600000x1, .i32⟩
  | .hbm, ⟨33, _⟩ => ⟨S600000x128, .f32⟩
  | .hbm, ⟨34, _⟩ => ⟨S600000x128, .f32⟩
  | .hbm, ⟨35, _⟩ => ⟨S600000x128, .f32⟩
  | .hbm, ⟨36, _⟩ => ⟨S_, .f32⟩
  | .hbm, ⟨37, _⟩ => ⟨S50000x128, .f32⟩
  | .hbm, ⟨38, _⟩ => ⟨S600000x1, .i32⟩
  | .hbm, ⟨39, _⟩ => ⟨S50000x128, .f32⟩
  | .hbm, ⟨40, _⟩ => ⟨S50000x128, .f32⟩
  | .hbm, ⟨41, _⟩ => ⟨S50000x1, .f32⟩
  | .hbm, ⟨42, _⟩ => ⟨S50000x128, .f32⟩
  | .hbm, ⟨43, _⟩ => ⟨S50000x128, .f32⟩
  | .hbm, ⟨44, _⟩ => ⟨S_, .f32⟩
  | .hbm, ⟨45, _⟩ => ⟨S50000x128, .f32⟩
  | .hbm, ⟨46, _⟩ => ⟨S50000x128, .f32⟩
  | .hbm, ⟨47, _⟩ => ⟨S50000x128, .f32⟩
  | .hbm, ⟨48, _⟩ => ⟨S_, .f32⟩
  | .hbm, ⟨49, _⟩ => ⟨S50000x128, .f32⟩
  | .hbm, ⟨50, _⟩ => ⟨S50000x128, .f32⟩
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_0 : Ref sig .tc := ⟨.hbm, 15, rfl⟩
abbrev main_v8 : Ref sig .tc := ⟨.hbm, 16, rfl⟩
abbrev main_v9 : Ref sig .tc := ⟨.hbm, 17, rfl⟩
abbrev main_cst_1 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_c : Ref sig .tc := ⟨.hbm, 25, rfl⟩
abbrev main_v16 : Ref sig .tc := ⟨.hbm, 26, rfl⟩
abbrev main_v17 : Ref sig .tc := ⟨.hbm, 27, rfl⟩
abbrev main_c_2 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_cst_3 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_cst_4 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_cst_5 : Ref sig .tc := ⟨.hbm, 48, rfl⟩
abbrev main_v35 : Ref sig .tc := ⟨.hbm, 49, rfl⟩
abbrev main_v36 : Ref sig .tc := ⟨.hbm, 50, rfl⟩

abbrev nD : Nat := 1
abbrev τ : Topo := Topo.v7x

variable {F : FTy → Type} [FloatOps F]

class Facts₀ : Prop where
  transposes_S128x128_S128x128_1_0 : S128x128.Transposes [1, 0] S128x128
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  bcast_S_S50000 : S_.BroadcastsInDim S50000 (![] : Fin 0 → Fin S50000.rank)
  bcast_S600000_S600000x1_0 : S600000.BroadcastsInDim S600000x1 (![0] : Fin 1 → Fin S600000x1.rank)
  bcast_S50000_S50000x1_0 : S50000.BroadcastsInDim S50000x1 (![0] : Fin 1 → Fin S50000x1.rank)
  bcast_S50000x1_S50000x128_0_1 : S50000x1.BroadcastsInDim S50000x128 (![0, 1] : Fin 2 → Fin S50000x128.rank)
  bcast_S_S600000 : S_.BroadcastsInDim S600000 (![] : Fin 0 → Fin S600000.rank)
  bcast_S600000x1_S600000x128_0_1 : S600000x1.BroadcastsInDim S600000x128 (![0, 1] : Fin 2 → Fin S600000x128.rank)
  bcast_S_S50000x128 : S_.BroadcastsInDim S50000x128 (![] : Fin 0 → Fin S50000x128.rank)
  dot_S50000x128_S128x128_S50000x128_1_0_0_1_n_n_wf : DotDims.WF S50000x128 S128x128 S50000x128 [1] [0] [0] [1] [] []
  scatter_S50000_S600000x1_S600000_n_0_0_1_wf : ScatterDims.WF S50000 S600000x1 S600000 [] [0] [0] 1
  gather_S50000x128_S600000x1_S600000x128_1_0_n_n_0_1_1128_wf : GatherDims.WF S50000x128 S600000x1 S600000x128 [1] [0] [] [0] [] 1 ![1, 128]
  scatter_S50000x128_S600000x1_S600000x128_1_0_0_1_wf : ScatterDims.WF S50000x128 S600000x1 S600000x128 [1] [0] [0] 1

variable [Facts₀]

def dot_S50000x128_S128x128_S50000x128_1_0_0_1_n_n : DotDims S50000x128 S128x128 S50000x128 where
  lhsContracting := [1]
  rhsContracting := [0]
  lhsNonContracting := [0]
  rhsNonContracting := [1]
  lhsBatch := []
  rhsBatch := []
  wf := dot_S50000x128_S128x128_S50000x128_1_0_0_1_n_n_wf
def scatter_S50000_S600000x1_S600000_n_0_0_1 : ScatterDims S50000 S600000x1 S600000 where
  updateWindowDims := []
  insertedWindowDims := [0]
  scatterDimsToOperandDims := [0]
  indexVectorDim := 1
  wf := scatter_S50000_S600000x1_S600000_n_0_0_1_wf
def gather_S50000x128_S600000x1_S600000x128_1_0_n_n_0_1_1128 : GatherDims S50000x128 S600000x1 S600000x128 where
  offsetDims := [1]
  collapsedSliceDims := [0]
  operandBatchingDims := []
  startIndicesBatchingDims := []
  startIndexMap := [0]
  indexVectorDim := 1
  sliceSizes := ![1, 128]
  wf := gather_S50000x128_S600000x1_S600000x128_1_0_n_n_0_1_1128_wf
def scatter_S50000x128_S600000x1_S600000x128_1_0_0_1 : ScatterDims S50000x128 S600000x1 S600000x128 where
  updateWindowDims := [1]
  insertedWindowDims := [0]
  scatterDimsToOperandDims := [0]
  indexVectorDim := 1
  wf := scatter_S50000x128_S600000x1_S600000x128_1_0_0_1_wf

class Facts : Prop extends Facts₀ where

variable [Facts]
-- ==== Proof.Spec.lean ====
/-
  The mathematics both programs compute, stated once over the extended reals.

  A graph-convolution layer with a residual blend on 50000 nodes, 600000 weighted edges and 128 features:
    s      = x · Wᵀ + b                          (the dense layer, row by row a sum over the 128 input features)
    dv     = (1 + Σ_{edges into a node} val) ^ (-1/2)   (the inverse square root of the weighted in-degree plus one)
    h      = s scaled row-wise by dv
    agg    = Σ_{edges e} val e · h[col e]  accumulated into row (row e)
    result = (((agg + h) scaled row-wise by dv) · 1/2 + s) · 2/3
  The two sums over edges are the host's scatter-add and gather; both programs apply them to the same operands, so
  they are carried here as two opaque functions (`degInv`, `edgeSum`) and never opened.  Everything else is read
  index by index.
-/
import Idealize.ShloMosaic.PureOps.Ideal
import Idealize.ShloMosaic.PureOps.Ideal.Laws
import Idealize.ShloMosaic.Lib.ValueIdx

noncomputable section

namespace Cert.Spec

open Idealize.ShloMosaic Idealize.ShloMosaic.ValueIdx

abbrev SNxD : Shape := ⟨2, ![50000, 128]⟩
abbrev SDxD : Shape := ⟨2, ![128, 128]⟩
abbrev S1xD : Shape := ⟨2, ![1, 128]⟩
abbrev SNx1 : Shape := ⟨2, ![50000, 1]⟩
abbrev SN : Shape := ⟨1, ![50000]⟩
abbrev SD : Shape := ⟨1, ![128]⟩
abbrev SE : Shape := ⟨1, ![600000]⟩
abbrev SEx1 : Shape := ⟨2, ![600000, 1]⟩
abbrev SExD : Shape := ⟨2, ![600000, 128]⟩
abbrev S0 : Shape := ⟨0, ![]⟩

/-- One half, as the float pattern both programs print for it. -/
abbrev half : EReal := Ideal.ofBits .f32 0x3F000000#32

/-! ## The forms the kernel's two regions compute, over the arrays as a region finds them:
    the weights already transposed, the bias a one-row matrix, the degree factor a one-column matrix -/

/-- Row `i 0` of `x` against column `i 1` of the transposed weights, plus the bias of that column. -/
def linearT (x : FVec Ideal SNxD .f32) (wt : FVec Ideal SDxD .f32) (b2 : FVec Ideal S1xD .f32) : FVec Ideal SNxD .f32 :=
  fun i => (∑ k : Fin 128, x (ix2 (n0 := 50000) (n1 := 128) (i 0) k) * wt (ix2 (n0 := 128) (n1 := 128) k (i 1)))
    + b2 (ix2 (n0 := 1) (n1 := 128) 0 (i 1))

/-- Every row multiplied by that row's entry of a one-column matrix. -/
def scaleT (s : FVec Ideal SNxD .f32) (d7 : FVec Ideal SNx1 .f32) : FVec Ideal SNxD .f32 :=
  fun i => s i * d7 (ix2 (n0 := 50000) (n1 := 1) (i 0) 0)

/-- The residual blend: the aggregate plus the node's own scaled features, scaled again, halved, added to the dense
    layer's output and multiplied by two thirds. -/
def blendT (agg h s : FVec Ideal SNxD .f32) (d7 : FVec Ideal SNx1 .f32) : FVec Ideal SNxD .f32 :=
  fun i => (((agg i + h i) * d7 (ix2 (n0 := 50000) (n1 := 1) (i 0) 0)) * half + s i) * ((2 / 3 : ℝ) : EReal)

/-! ## The same over the arguments themselves -/

/-- The dense layer: `x · Wᵀ + b`. -/
def linear (x : FVec Ideal SNxD .f32) (W : FVec Ideal SDxD .f32) (b : FVec Ideal SD .f32) : FVec Ideal SNxD .f32 :=
  fun i => (∑ k : Fin 128, x (ix2 (n0 := 50000) (n1 := 128) (i 0) k) * W (ix2 (n0 := 128) (n1 := 128) (i 1) k))
    + b (ix1 (n := 128) (i 1))

/-- Every row multiplied by that row's entry of a vector. -/
def scale (s : FVec Ideal SNxD .f32) (dv : FVec Ideal SN .f32) : FVec Ideal SNxD .f32 :=
  fun i => s i * dv (ix1 (n := 50000) (i 0))

def blend (agg h s : FVec Ideal SNxD .f32) (dv : FVec Ideal SN .f32) : FVec Ideal SNxD .f32 :=
  fun i => (((agg i + h i) * dv (ix1 (n := 50000) (i 0))) * half + s i) * ((2 / 3 : ℝ) : EReal)

/-! ## The two sums over edges, opaque -/

/-- The dimension numbers of the degree sum: a value per edge accumulated at the edge's node. -/
def degDims : ScatterDims SN SEx1 SE where
  updateWindowDims := []
  insertedWindowDims := [0]
  scatterDimsToOperandDims := [0]
  indexVectorDim := 1
  wf := by decide

/-- The dimension numbers of the row gather: row `idx e` of a node-feature matrix for every edge `e`. -/
def rowGather : GatherDims SNxD SEx1 SExD where
  offsetDims := [1]
  collapsedSliceDims := [0]
  operandBatchingDims := []
  startIndicesBatchingDims := []
  startIndexMap := [0]
  indexVectorDim := 1
  sliceSizes := ![1, 128]
  wf := by decide

/-- The dimension numbers of the aggregation: a feature row per edge accumulated at the edge's node. -/
def rowScatter : ScatterDims SNxD SEx1 SExD where
  updateWindowDims := [1]
  insertedWindowDims := [0]
  scatterDimsToOperandDims := [0]
  indexVectorDim := 1
  wf := by decide

/-- `(1 + Σ val over the edges whose second endpoint is the node) ^ (-1/2)`, as the host computes it. -/
def degInv (col : IVec SE 32) (val : FVec Ideal SE .f32) : FVec Ideal SN .f32 :=
  Host.powf
    (addf (Host.scatterAdd degDims (broadcastInDim SN ![] (by decide) (constant (F := Ideal) S0 .f32 0x00000000#32))
        (broadcastInDim SEx1 ![0] (by decide) col) val)
      (broadcastInDim SN ![] (by decide) (constant (F := Ideal) S0 .f32 0x3F800000#32)))
    (broadcastInDim SN ![] (by decide) (constant (F := Ideal) S0 .f32 0xBF000000#32))

/-- `Σ_e val e · h[col e]` accumulated into row `row e` (a negative `col e` counted from the end), as the host
    computes it. -/
def edgeSum (h : FVec Ideal SNxD .f32) (row col : IVec SE 32) (val : FVec Ideal SE .f32) : FVec Ideal SNxD .f32 :=
  Host.scatterAdd rowScatter (broadcastInDim SNxD ![] (by decide) (constant (F := Ideal) S0 .f32 0x00000000#32))
    (broadcastInDim SEx1 ![0] (by decide) row)
    (mulf (broadcastInDim SExD ![0, 1] (by decide) (broadcastInDim SEx1 ![0] (by decide) val))
      (Host.gather rowGather h
        (broadcastInDim SEx1 ![0] (by decide)
          (select (cmpi .slt col (broadcastInDim SE ![] (by decide) (constantI S0 32 0#32)))
            (addi col (broadcastInDim SE ![] (by decide) (constantI S0 32 50000#32))) col))))

/-- The whole layer as one function of the six arguments. -/
def layer (x : FVec Ideal SNxD .f32) (row col : IVec SE 32) (val : FVec Ideal SE .f32) (W : FVec Ideal SDxD .f32)
    (b : FVec Ideal SD .f32) : FVec Ideal SNxD .f32 :=
  blend (edgeSum (scale (linear x W b) (degInv col val)) row col val) (scale (linear x W b) (degInv col val))
    (linear x W b) (degInv col val)

end Cert.Spec

end
-- ==== Proof.Host.lean ====
/-
  What the two regions of the idealized kernel find in their arrays, as terms of the six arguments.

  Before the first region the host has computed, from the arguments alone: the degree factor
  `(1 + Σ val over incoming edges) ^ (-1/2)` laid out as a one-column matrix, the transposed weights, and the bias as
  a one-row matrix.  Between the regions it gathers the rows of the first region's second output by the edges' second
  endpoints, weighs them by the edge values and accumulates them at the first endpoints.  Nothing else that the
  second region reads is written in between.
-/
import proofs.«118223_j9852654977352_1_alg».proof.Proof.Gen.KernelIdeal.Frame
import proofs.«118223_j9852654977352_1_alg».proof.Proof.Spec
import Idealize.ShloMosaic.Lib.StableHlo.Run

set_option maxRecDepth 16384

noncomputable section

namespace Cert.KernelIdeal.HostVals

open Cert.KernelIdeal Cert.KernelIdeal.Gen
open Idealize.ShloMosaic Idealize.ShloMosaic.TcCoe Idealize.SL.Sem Idealize.ShloMosaic.StableHlo

variable (m : (ℓ : Loc nD τ sig) → Buf (Elt Ideal) ℓ) (ρ : Dev nD → PrngReg)

/-! ## The first region's entry -/

/-- The node features reach the first region as launched. -/
theorem V1_arg0 (c : Dev nD) : V1 m ρ c main_arg0 = m ((c : Thread nD τ).loc main_arg0) := by
  show StableHlo.after hostOps0 (W0 m ρ c) (Proc.devRef .tc main_arg0) = _
  after_results <;> rfl

/-- The weights reach it transposed. -/
theorem V1_v8 (c : Dev nD) : V1 m ρ c main_v8
    = transpose S128x128 [1, 0] (m ((c : Thread nD τ).loc main_arg4)) transposes_S128x128_S128x128_1_0 := by
  show StableHlo.after hostOps0 (W0 m ρ c) (Proc.devRef .tc main_v8) = _
  after_results <;> rfl

/-- The bias reaches it as a one-row matrix. -/
theorem V1_v9 (c : Dev nD) : V1 m ρ c main_v9
    = shapeCast S1x128 (m ((c : Thread nD τ).loc main_arg5)) shapeCasts_S128_S1x128 := by
  show StableHlo.after hostOps0 (W0 m ρ c) (Proc.devRef .tc main_v9) = _
  after_results <;> rfl

/-- The degree factor reaches it as a one-column matrix. -/
theorem V1_v7 (c : Dev nD) : V1 m ρ c main_v7
    = shapeCast S50000x1 (Cert.Spec.degInv (m ((c : Thread nD τ).loc main_arg2)) (m ((c : Thread nD τ).loc main_arg3)))
        shapeCasts_S50000_S50000x1 := by
  show StableHlo.after hostOps0 (W0 m ρ c) (Proc.devRef .tc main_v7) = _
  after_results <;> rfl

/-! ## The first region's exit: its outputs at what its write-backs leave, everything else as it was -/

/-- The dense layer's output array after the first region. -/
theorem W2_v10_0 (c : Dev nD) : W2 m ρ c (Proc.devRef .tc main_v10_0) = (dat0 (V1 m ρ) c).arrAt 4 cfg0.N :=
  W2_arr m ρ c 4

/-- The scaled features' array after the first region. -/
theorem W2_v10_1 (c : Dev nD) : W2 m ρ c (Proc.devRef .tc main_v10_1) = (dat0 (V1 m ρ) c).arrAt 5 cfg0.N :=
  W2_arr m ρ c 5

/-- The degree column is an input of the first region: it leaves it as it found it. -/
theorem W2_v7 (c : Dev nD) : W2 m ρ c (Proc.devRef .tc main_v7) = V1 m ρ c main_v7 :=
  (W2_arr m ρ c 3).trans (((dat0 (V1 m ρ) c).arrAt_in 3 rfl _).trans (A_eq0 (V1 m ρ) c 3))

/-- The edge arrays are no window of the first region and no host operation before it writes them. -/
theorem W2_arg1 (c : Dev nD) : W2 m ρ c (Proc.devRef .tc main_arg1) = m ((c : Thread nD τ).loc main_arg1) :=
  (W2_of_ne m ρ c main_arg1 (by decide)).trans (by
    show StableHlo.after hostOps0 (W0 m ρ c) (Proc.devRef .tc main_arg1) = _
    after_results <;> rfl)
theorem W2_arg2 (c : Dev nD) : W2 m ρ c (Proc.devRef .tc main_arg2) = m ((c : Thread nD τ).loc main_arg2) :=
  (W2_of_ne m ρ c main_arg2 (by decide)).trans (by
    show StableHlo.after hostOps0 (W0 m ρ c) (Proc.devRef .tc main_arg2) = _
    after_results <;> rfl)
theorem W2_arg3 (c : Dev nD) : W2 m ρ c (Proc.devRef .tc main_arg3) = m ((c : Thread nD τ).loc main_arg3) :=
  (W2_of_ne m ρ c main_arg3 (by decide)).trans (by
    show StableHlo.after hostOps0 (W0 m ρ c) (Proc.devRef .tc main_arg3) = _
    after_results <;> rfl)

/-! ## The second region's entry -/

/-- The aggregate over the edges, of the scaled features as the first region left them. -/
theorem V3_v23 (c : Dev nD) : V3 m ρ c main_v23
    = Cert.Spec.edgeSum (W2 m ρ c (Proc.devRef .tc main_v10_1)) (m ((c : Thread nD τ).loc main_arg1))
        (m ((c : Thread nD τ).loc main_arg2)) (m ((c : Thread nD τ).loc main_arg3)) := by
  show StableHlo.after hostOps1 (W2 m ρ c) (Proc.devRef .tc main_v23) = _
  after_results
  rw [W2_arg1, W2_arg2, W2_arg3]
  rfl

/-- The host operations between the regions write none of the other three arrays the second region reads. -/
theorem V3_v10_1 (c : Dev nD) : V3 m ρ c main_v10_1 = W2 m ρ c (Proc.devRef .tc main_v10_1) := by
  show StableHlo.after hostOps1 (W2 m ρ c) (Proc.devRef .tc main_v10_1) = _
  after_results <;> rfl
theorem V3_v10_0 (c : Dev nD) : V3 m ρ c main_v10_0 = W2 m ρ c (Proc.devRef .tc main_v10_0) := by
  show StableHlo.after hostOps1 (W2 m ρ c) (Proc.devRef .tc main_v10_0) = _
  after_results <;> rfl
theorem V3_v7 (c : Dev nD) : V3 m ρ c main_v7 = W2 m ρ c (Proc.devRef .tc main_v7) := by
  show StableHlo.after hostOps1 (W2 m ρ c) (Proc.devRef .tc main_v7) = _
  after_results <;> rfl

end Cert.KernelIdeal.HostVals

end
-- ==== Proof.Layout.lean ====
/-
  The kernel's regions see the weights transposed, the bias as a one-row matrix and the degree factor as a one-column
  matrix; read at an index these are the arguments' own entries, so the forms the regions compute are the forms over the
  arguments.
-/
import proofs.«118223_j9852654977352_1_alg».proof.Proof.Spec
import Idealize.ShloMosaic.Lib.Pipeline.Value

noncomputable section

namespace Cert.Spec

open Idealize.ShloMosaic Idealize.ShloMosaic.ValueIdx

/-- Entry `(k, j)` of the transposed weights is entry `(j, k)` of the weights. -/
theorem transpose_at (W : FVec Ideal SDxD .f32) (ht : SDxD.Transposes [1, 0] SDxD) (k j : Fin 128) :
    transpose SDxD [1, 0] W ht (ix2 (n0 := 128) (n1 := 128) k j) = W (ix2 (n0 := 128) (n1 := 128) j k) :=
  transpose_apply [1, 0] W ht _ _ (fun b => match b with
    | ⟨0, _⟩ => rfl
    | ⟨1, _⟩ => rfl)

/-- Entry `(0, j)` of the bias laid out as one row is entry `j` of the bias. -/
theorem row_at (b : FVec Ideal SD .f32) (hc : SD.ShapeCasts S1xD) (j : Fin 128) :
    shapeCast S1xD b hc (ix2 (n0 := 1) (n1 := 128) 0 j) = b (ix1 (n := 128) j) :=
  shapeCast_apply b hc _ _ (by
    rw [Shape.rowMajor_val_one, Shape.rowMajor_val_two]
    show j.val = 0 * 128 + j.val
    omega)

/-- Entry `(r, 0)` of a vector laid out as one column is entry `r` of the vector. -/
theorem col_at (dv : FVec Ideal SN .f32) (hc : SN.ShapeCasts SNx1) (r : Fin 50000) :
    shapeCast SNx1 dv hc (ix2 (n0 := 50000) (n1 := 1) r 0) = dv (ix1 (n := 50000) r) :=
  shapeCast_apply dv hc _ _ (by
    rw [Shape.rowMajor_val_one, Shape.rowMajor_val_two]
    show r.val = r.val * 1 + 0
    omega)

theorem linearT_eq (x : FVec Ideal SNxD .f32) (W : FVec Ideal SDxD .f32) (b : FVec Ideal SD .f32)
    (ht : SDxD.Transposes [1, 0] SDxD) (hc : SD.ShapeCasts S1xD) :
    linearT x (transpose SDxD [1, 0] W ht) (shapeCast S1xD b hc) = linear x W b := by
  funext i
  unfold linearT linear
  exact congrArg₂ (· + ·)
    (Finset.sum_congr rfl fun k _ => congrArg (x (ix2 (n0 := 50000) (n1 := 128) (i 0) k) * ·) (transpose_at W ht k (i 1)))
    (row_at b hc (i 1))

theorem scaleT_eq (s : FVec Ideal SNxD .f32) (dv : FVec Ideal SN .f32) (hc : SN.ShapeCasts SNx1) :
    scaleT s (shapeCast SNx1 dv hc) = scale s dv := by
  funext i
  unfold scaleT scale
  exact congrArg (s i * ·) (col_at dv hc (i 0))

theorem blendT_eq (agg h s : FVec Ideal SNxD .f32) (dv : FVec Ideal SN .f32) (hc : SN.ShapeCasts SNx1) :
    blendT agg h s (shapeCast SNx1 dv hc) = blend agg h s dv := by
  funext i
  unfold blendT blend
  exact congrArg (fun z => (((agg i + h i) * z) * half + s i) * ((2 / 3 : ℝ) : EReal)) (col_at dv hc (i 0))

end Cert.Spec

end
-- ==== Proof.KernelValue.lean ====
/-
  The idealized kernel's result array as one function of the six arguments.

  The result is the second region's output: the residual blend of the aggregate, the scaled features, the dense layer's
  output and the degree factor, as that region finds them.  The aggregate is the host's sum over edges of the scaled
  features the first region wrote; the scaled features and the dense layer's output are the first region's two outputs,
  over the node features, the transposed weights, the bias row and the degree column.  Read back to the arguments this
  is `Cert.Spec.layer`.  What each region leaves in its outputs is taken here as a hypothesis, at that region's entry
  contents; the modules on the regions prove them for any entry contents.
-/
import proofs.«118223_j9852654977352_1_alg».proof.Proof.Host
import proofs.«118223_j9852654977352_1_alg».proof.Proof.Layout

set_option maxRecDepth 16384

noncomputable section

namespace Cert.KernelIdeal.HostVals

open Cert.KernelIdeal Cert.KernelIdeal.Gen
open Idealize.ShloMosaic Idealize.ShloMosaic.TcCoe Idealize.SL.Sem Idealize.ShloMosaic.StableHlo

variable (m : (ℓ : Loc nD τ sig) → Buf (Elt Ideal) ℓ) (ρ : Dev nD → PrngReg)

theorem result_of (c : Dev nD)
    (hs : (dat0 (V1 m ρ) c).arrAt 4 cfg0.N
      = Cert.Spec.linearT (V1 m ρ c main_arg0) (V1 m ρ c main_v8) (V1 m ρ c main_v9))
    (hh : (dat0 (V1 m ρ) c).arrAt 5 cfg0.N
      = Cert.Spec.scaleT (Cert.Spec.linearT (V1 m ρ c main_arg0) (V1 m ρ c main_v8) (V1 m ρ c main_v9)) (V1 m ρ c main_v7))
    (ho : (dat1 (V3 m ρ) c).arrAt 4 cfg1.N
      = Cert.Spec.blendT (V3 m ρ c main_v23) (V3 m ρ c main_v10_1) (V3 m ρ c main_v10_0) (V3 m ρ c main_v7)) :
    W4 m ρ c (Proc.devRef .tc main_v24)
      = Cert.Spec.layer (m ((c : Thread nD τ).loc main_arg0)) (m ((c : Thread nD τ).loc main_arg1))
          (m ((c : Thread nD τ).loc main_arg2)) (m ((c : Thread nD τ).loc main_arg3))
          (m ((c : Thread nD τ).loc main_arg4)) (m ((c : Thread nD τ).loc main_arg5)) := by
  rw [show W4 m ρ c (Proc.devRef .tc main_v24) = (dat1 (V3 m ρ) c).arrAt 4 cfg1.N from W4_arr m ρ c 4, ho]
  rw [V3_v23, V3_v10_1, V3_v10_0, V3_v7, W2_v10_1, W2_v10_0, W2_v7, hh, hs, V1_arg0, V1_v8, V1_v9, V1_v7]
  rw [Cert.Spec.linearT_eq, Cert.Spec.scaleT_eq, Cert.Spec.blendT_eq]
  rfl

end Cert.KernelIdeal.HostVals

end
-- ==== Proof.Region0.lean ====
/-
  Region 0: what the first kernel call leaves in its two output arrays, over the extended reals, for any contents the
  region finds.

  The grid has ten points; point `t` reads rows `5000 t … 5000 t + 4999` of the features and of the degree column, the
  whole weight matrix and the whole bias row, and writes the same rows of both outputs.  On a block the body computes
      s[p, q] = Σ_k x[p, k] · wt[k, q] + b[0, q]          (the narrowing before the product is the identity here)
      h[p, q] = s[p, q] · d[p, 0]
  so block `t` of each output is block `t` of one whole-array function (`linearT`, resp. `scaleT` of it), and the ten
  blocks tile the 50000 rows: row `r` lies in the block of point `r / 5000`.
-/
import proofs.«118223_j9852654977352_1_alg».proof.Proof.Gen.KernelIdeal.Frame
import proofs.«118223_j9852654977352_1_alg».proof.Proof.Spec
import Idealize.ShloMosaic.Lib.Pipeline.Value
import Idealize.ShloMosaic.Lib.ValueIdx
import Idealize.ShloMosaic.PureOps.Ideal.Laws

set_option maxRecDepth 16384

noncomputable section

namespace Cert.KernelIdeal.Region0

open Cert.KernelIdeal Cert.KernelIdeal.Gen Idealize.ShloMosaic Idealize.ShloMosaic.TcCoe Idealize.SL.Sem
open Idealize.ShloMosaic.Pipeline (Dat Cfg Window)
open Idealize.ShloMosaic.ValueIdx

/-! ## The contraction's operand indices, axis by axis -/

theorem dot_lhs_row (i : S5000x128.Idx) (q : dot_S5000x128_S128x128_S5000x128_1_0_0_1_n_n.contr.Idx) :
    (dot_S5000x128_S128x128_S5000x128_1_0_0_1_n_n.lhsIdx i q 0).val = (i 0).val := by
  unfold DotDims.lhsIdx
  rw [dif_neg (show ¬(0 : Fin S5000x128.rank) ∈ dot_S5000x128_S128x128_S5000x128_1_0_0_1_n_n.lhsBatch by decide), dif_pos (show (0 : Fin S5000x128.rank) ∈ dot_S5000x128_S128x128_S5000x128_1_0_0_1_n_n.lhsNonContracting by decide)]
  rfl
theorem dot_lhs_col (i : S5000x128.Idx) (q : dot_S5000x128_S128x128_S5000x128_1_0_0_1_n_n.contr.Idx) :
    (dot_S5000x128_S128x128_S5000x128_1_0_0_1_n_n.lhsIdx i q 1).val = (q ⟨0, by decide⟩).val :=
  dot_S5000x128_S128x128_S5000x128_1_0_0_1_n_n.lhsIdx_val_of_single rfl i q
theorem dot_rhs_row (i : S5000x128.Idx) (q : dot_S5000x128_S128x128_S5000x128_1_0_0_1_n_n.contr.Idx) :
    (dot_S5000x128_S128x128_S5000x128_1_0_0_1_n_n.rhsIdx i q 0).val = (q ⟨0, by decide⟩).val :=
  dot_S5000x128_S128x128_S5000x128_1_0_0_1_n_n.rhsIdx_val_of_single rfl i q
theorem dot_rhs_col (i : S5000x128.Idx) (q : dot_S5000x128_S128x128_S5000x128_1_0_0_1_n_n.contr.Idx) :
    (dot_S5000x128_S128x128_S5000x128_1_0_0_1_n_n.rhsIdx i q 1).val = (i 1).val := by
  unfold DotDims.rhsIdx
  rw [dif_neg (show ¬(1 : Fin S128x128.rank) ∈ dot_S5000x128_S128x128_S5000x128_1_0_0_1_n_n.rhsBatch by decide), dif_pos (show (1 : Fin S128x128.rank) ∈ dot_S5000x128_S128x128_S5000x128_1_0_0_1_n_n.rhsNonContracting by decide)]
  rfl

/-- The dense layer on one block: row `p` of the block against column `q` of the weights, plus the bias of column `q`. -/
theorem linear_block_apply (x0 : Vec Ideal S5000x128 .f32) (x1 : Vec Ideal S128x128 .f32) (x2 : Vec Ideal S1x128 .f32)
    (p : Fin 5000) (q : Fin 128) :
    k0_pay1 x0 x1 x2 (ix2 p q)
      = (∑ k : Fin 128, x0 (ix2 p k) * x1 (ix2 k q)) + x2 (ix2 0 q) := by
  unfold k0_pay1
  simp only [shapeCast_self]
  rw [addf_apply]
  show FloatOps.matmul _ _ _ _ _ _ + _ = _
  rw [Ideal.matmul_constant_zero_apply, ← Equiv.sum_comp (contrEquiv1 dot_S5000x128_S128x128_S5000x128_1_0_0_1_n_n 128 rfl rfl).symm]
  refine congrArg₂ (· + ·) (Finset.sum_congr rfl fun k _ => ?_) ?_
  · have hk := contrEquiv1_symm_val dot_S5000x128_S128x128_S5000x128_1_0_0_1_n_n 128 rfl rfl k
    have el : dot_S5000x128_S128x128_S5000x128_1_0_0_1_n_n.lhsIdx (ix2 p q) ((contrEquiv1 dot_S5000x128_S128x128_S5000x128_1_0_0_1_n_n 128 rfl rfl).symm k) = ix2 p k := funext fun a => Fin.ext (by
      match a with
      | ⟨0, _⟩ => exact dot_lhs_row _ _
      | ⟨1, _⟩ => exact (dot_lhs_col _ _).trans hk)
    have er : dot_S5000x128_S128x128_S5000x128_1_0_0_1_n_n.rhsIdx (ix2 p q) ((contrEquiv1 dot_S5000x128_S128x128_S5000x128_1_0_0_1_n_n 128 rfl rfl).symm k) = ix2 k q := funext fun a => Fin.ext (by
      match a with
      | ⟨0, _⟩ => exact (dot_rhs_row _ _).trans hk
      | ⟨1, _⟩ => exact dot_rhs_col _ _)
    rw [el, er, truncf_apply, truncf_apply]
  · exact broadcastTo_apply x2 broadcasts_S1x128_S5000x128 (ix2 p q) (ix2 0 q) (fun a => match a with
      | ⟨0, _⟩ => by show (0 : Nat) = if (1 : Nat) = 1 then 0 else _; rw [if_pos rfl]
      | ⟨1, _⟩ => by show q.val = if (128 : Nat) = 1 then 0 else q.val; rw [if_neg (by decide)])

/-- The scaled layer on one block: the dense layer's entry times the row's degree factor. -/
theorem scaled_block_apply (x0 : Vec Ideal S5000x128 .f32) (x1 : Vec Ideal S128x128 .f32) (x2 : Vec Ideal S1x128 .f32)
    (x3 : Vec Ideal S5000x1 .f32) (p : Fin 5000) (q : Fin 128) :
    k0_pay2 x0 x1 x2 x3 (ix2 p q)
      = ((∑ k : Fin 128, x0 (ix2 p k) * x1 (ix2 k q)) + x2 (ix2 0 q)) * x3 (ix2 p 0) := by
  unfold k0_pay2
  simp only [shapeCast_self]
  rw [mulf_apply, linear_block_apply]
  refine congrArg₂ (· * ·) rfl ?_
  exact broadcastTo_apply x3 broadcasts_S5000x1_S5000x128 (ix2 p q) (ix2 p 0) (fun a => match a with
      | ⟨0, _⟩ => by show p.val = if (5000 : Nat) = 1 then 0 else p.val; rw [if_neg (by decide)]
      | ⟨1, _⟩ => by show (0 : Nat) = if (1 : Nat) = 1 then 0 else _; rw [if_pos rfl])

/-! ## The printed index maps over the grid -/

theorem hz : (![0, 0] : Fin 2 → Nat) = fun _ => 0 := funext fun a => by
  match a with
  | ⟨0, _⟩ => rfl
  | ⟨1, _⟩ => rfl

/-- Point `t` takes row block `t` of the features, of the degree column and of both outputs; the weights and the
    bias row are whole at every point. -/
theorem idx_facts : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = t.val ∧ win0_3.index t (1 : Fin 2) = 0
    ∧ win0_4.index t (0 : Fin 2) = t.val ∧ win0_4.index t (1 : Fin 2) = 0
    ∧ win0_5.index t (0 : Fin 2) = t.val ∧ win0_5.index t (1 : Fin 2) = 0 :=
  (by decide +kernel : ∀ t : Fin grid0.N, _)

/-- Every output block is written back. -/
theorem flush_facts : ∀ t : Fin cfg0.N, (cfg0.win 4).flush t = true ∧ (cfg0.win 5).flush t = true :=
  (by decide +kernel : ∀ t : Fin grid0.N, _)

/-! ## A block's payload against the whole arrays -/

/-- If the feature block's row `p` is row `r` of the array and the weight and bias blocks are their arrays, the dense
    layer's block entry `(p, q)` is the array form's entry `(r, q)`. -/
theorem linear_block_eq (A0 : FVec Ideal Cert.Spec.SNxD .f32) (A1 : FVec Ideal Cert.Spec.SDxD .f32) (A2 : FVec Ideal Cert.Spec.S1xD .f32)
    (x0 : Vec Ideal S5000x128 .f32) (x1 : Vec Ideal S128x128 .f32) (x2 : Vec Ideal S1x128 .f32)
    (p : Fin 5000) (q : Fin 128) (r : Fin 50000)
    (h0 : ∀ k : Fin 128, x0 (ix2 p k) = A0 (ix2 r k)) (h1 : x1 = A1) (h2 : x2 = A2) :
    k0_pay1 x0 x1 x2 (ix2 p q) = Cert.Spec.linearT A0 A1 A2 (ix2 r q) := by
  rw [linear_block_apply]
  subst h1 h2
  show _ = (∑ k : Fin 128, A0 (ix2 r k) * x1 (ix2 k q)) + x2 (ix2 0 q)
  refine congrArg₂ (· + ·) (Finset.sum_congr rfl fun k _ => ?_) rfl
  rw [h0]

theorem scaled_block_eq (A0 : FVec Ideal Cert.Spec.SNxD .f32) (A1 : FVec Ideal Cert.Spec.SDxD .f32) (A2 : FVec Ideal Cert.Spec.S1xD .f32)
    (A3 : FVec Ideal Cert.Spec.SNx1 .f32)
    (x0 : Vec Ideal S5000x128 .f32) (x1 : Vec Ideal S128x128 .f32) (x2 : Vec Ideal S1x128 .f32) (x3 : Vec Ideal S5000x1 .f32)
    (p : Fin 5000) (q : Fin 128) (r : Fin 50000)
    (h0 : ∀ k : Fin 128, x0 (ix2 p k) = A0 (ix2 r k)) (h1 : x1 = A1) (h2 : x2 = A2) (h3 : x3 (ix2 p 0) = A3 (ix2 r 0)) :
    k0_pay2 x0 x1 x2 x3 (ix2 p q) = Cert.Spec.scaleT (Cert.Spec.linearT A0 A1 A2) A3 (ix2 r q) := by
  rw [scaled_block_apply]
  show _ = Cert.Spec.linearT A0 A1 A2 (ix2 r q) * A3 (ix2 r 0)
  rw [← linear_block_eq A0 A1 A2 x0 x1 x2 p q r h0 h1 h2, linear_block_apply, h3]

variable (V : (c : Dev nD) → (b : Ref sig .tc) → Buf (Elt Ideal) ((c : Thread nD τ).loc b))

/-! ## What one point writes back -/

/-- The weight block at any point is the weight array. -/
theorem weights_block (c : Dev nD) (t : Fin cfg0.N) : (iblk0 V c 1 t : Vec Ideal S128x128 .f32) = V c main_v8 := by
  obtain ⟨-, -, e10, e11, -⟩ := idx_facts t
  refine funext fun (y : S128x128.Idx) => ?_
  show V c main_v8 (((cfg0.win 1).blk t).view.emb y) = V c main_v8 y
  refine congrArg _ (funext fun a => Fin.ext ?_)
  match a with
  | ⟨0, _⟩ => show win0_1.index t (0 : Fin 2) * 128 + 1 * (y 0).val = (y 0).val; omega
  | ⟨1, _⟩ => show win0_1.index t (1 : Fin 2) * 128 + 1 * (y 1).val = (y 1).val; omega

/-- The bias block at any point is the bias row. -/
theorem bias_block (c : Dev nD) (t : Fin cfg0.N) : (iblk0 V c 2 t : Vec Ideal S1x128 .f32) = V c main_v9 := by
  obtain ⟨-, -, -, -, e20, e21, -⟩ := idx_facts t
  refine funext fun (y : S1x128.Idx) => ?_
  show V c main_v9 (((cfg0.win 2).blk t).view.emb y) = V c main_v9 y
  refine congrArg _ (funext fun a => Fin.ext ?_)
  match a with
  | ⟨0, _⟩ => show win0_2.index t (0 : Fin 2) * 1 + 1 * (y 0).val = (y 0).val; omega
  | ⟨1, _⟩ => show win0_2.index t (1 : Fin 2) * 128 + 1 * (y 1).val = (y 1).val; omega

/-- Row `p` of the feature block at point `t` is row `t * 5000 + p` of the features. -/
theorem features_block (c : Dev nD) (t : Fin cfg0.N) (p : Fin 5000) (k : Fin 128) (r : Fin 50000)
    (hr : r.val = t.val * 5000 + p.val) :
    (iblk0 V c 0 t : Vec Ideal S5000x128 .f32) (ix2 p k) = V c main_arg0 (ix2 r k) := by
  obtain ⟨e00, e01, -⟩ := idx_facts t
  show V c main_arg0 (((cfg0.win 0).blk t).view.emb (ix2 p k)) = V c main_arg0 (ix2 r k)
  refine congrArg _ (funext fun a => Fin.ext ?_)
  match a with
  | ⟨0, _⟩ => show win0_0.index t (0 : Fin 2) * 5000 + 1 * p.val = r.val; omega
  | ⟨1, _⟩ => show win0_0.index t (1 : Fin 2) * 128 + 1 * k.val = k.val; omega

/-- Row `p` of the degree block at point `t` is row `t * 5000 + p` of the degree column. -/
theorem degree_block (c : Dev nD) (t : Fin cfg0.N) (p : Fin 5000) (r : Fin 50000)
    (hr : r.val = t.val * 5000 + p.val) :
    (iblk0 V c 3 t : Vec Ideal S5000x1 .f32) (ix2 p 0) = V c main_v7 (ix2 r 0) := by
  obtain ⟨-, -, -, -, -, -, e30, e31, -⟩ := idx_facts t
  show V c main_v7 (((cfg0.win 3).blk t).view.emb (ix2 p 0)) = V c main_v7 (ix2 r 0)
  refine congrArg _ (funext fun a => Fin.ext ?_)
  match a with
  | ⟨0, _⟩ => show win0_3.index t (0 : Fin 2) * 5000 + 1 * p.val = r.val; omega
  | ⟨1, _⟩ => show win0_3.index t (1 : Fin 2) * 1 + 1 * 0 = 0; omega

/-- What point `t` writes back to the first output is block `t` of the dense layer of the arrays. -/
theorem support_flushed (c : Dev nD) (t : Fin cfg0.N) :
    (dat0 V c).flushed 4 t = ((cfg0.win 4).blk t).view.read (Elt Ideal)
      (Cert.Spec.linearT (V c main_arg0) (V c main_v8) (V c main_v9)) := by
  show (cfg0.win 4).cut (grid0.coords t) ((dat0 V c).after 4 t) = _
  rw [after0_4]
  unfold out0_4
  rw [View.canon_unit_zero hz]
  simp only [View.ld_unit_zero (S := S5000x128) hz, View.ld_unit_zero (S := S128x128) hz, View.ld_unit_zero (S := S1x128) hz]
  obtain ⟨-, -, -, -, -, -, -, -, e40, e41, -⟩ := idx_facts t
  have ht : t.val < 10 := t.isLt
  refine funext fun (j : S5000x128.Idx) => ?_
  obtain ⟨p, q, rfl⟩ : ∃ (p : Fin 5000) (q : Fin 128), j = ix2 p q := ⟨j 0, j 1, eq_ix2 j⟩
  have hp : p.val < 5000 := p.isLt
  have hemb : ((cfg0.win 4).blk t).view.emb (ix2 p q) = ix2 (⟨t.val * 5000 + p.val, by omega⟩ : Fin 50000) q := by
    refine funext fun a => Fin.ext ?_
    match a with
    | ⟨0, _⟩ => show win0_4.index t (0 : Fin 2) * 5000 + 1 * p.val = t.val * 5000 + p.val; omega
    | ⟨1, _⟩ => show win0_4.index t (1 : Fin 2) * 128 + 1 * q.val = q.val; omega
  show k0_pay1 (iblk0 V c 0 t) (iblk0 V c 1 t) (iblk0 V c 2 t) (ix2 p q)
    = Cert.Spec.linearT (V c main_arg0) (V c main_v8) (V c main_v9) (((cfg0.win 4).blk t).view.emb (ix2 p q))
  rw [hemb]
  exact linear_block_eq _ _ _ _ _ _ p q _ (fun k => features_block V c t p k _ rfl) (weights_block V c t) (bias_block V c t)

/-- What point `t` writes back to the second output is block `t` of the scaled dense layer of the arrays. -/
theorem h_flushed (c : Dev nD) (t : Fin cfg0.N) :
    (dat0 V c).flushed 5 t = ((cfg0.win 5).blk t).view.read (Elt Ideal)
      (Cert.Spec.scaleT (Cert.Spec.linearT (V c main_arg0) (V c main_v8) (V c main_v9)) (V c main_v7)) := by
  show (cfg0.win 5).cut (grid0.coords t) ((dat0 V c).after 5 t) = _
  rw [after0_5]
  unfold out0_5
  rw [View.canon_unit_zero hz]
  simp only [View.ld_unit_zero (S := S5000x128) hz, View.ld_unit_zero (S := S128x128) hz, View.ld_unit_zero (S := S1x128) hz,
    View.ld_unit_zero (S := S5000x1) hz]
  obtain ⟨-, -, -, -, -, -, -, -, -, -, e50, e51⟩ := idx_facts t
  have ht : t.val < 10 := t.isLt
  refine funext fun (j : S5000x128.Idx) => ?_
  obtain ⟨p, q, rfl⟩ : ∃ (p : Fin 5000) (q : Fin 128), j = ix2 p q := ⟨j 0, j 1, eq_ix2 j⟩
  have hp : p.val < 5000 := p.isLt
  have hemb : ((cfg0.win 5).blk t).view.emb (ix2 p q) = ix2 (⟨t.val * 5000 + p.val, by omega⟩ : Fin 50000) q := by
    refine funext fun a => Fin.ext ?_
    match a with
    | ⟨0, _⟩ => show win0_5.index t (0 : Fin 2) * 5000 + 1 * p.val = t.val * 5000 + p.val; omega
    | ⟨1, _⟩ => show win0_5.index t (1 : Fin 2) * 128 + 1 * q.val = q.val; omega
  show k0_pay2 (iblk0 V c 0 t) (iblk0 V c 1 t) (iblk0 V c 2 t) (iblk0 V c 3 t) (ix2 p q)
    = Cert.Spec.scaleT (Cert.Spec.linearT (V c main_arg0) (V c main_v8) (V c main_v9)) (V c main_v7)
        (((cfg0.win 5).blk t).view.emb (ix2 p q))
  rw [hemb]
  exact scaled_block_eq _ _ _ _ _ _ _ _ p q _ (fun k => features_block V c t p k _ rfl) (weights_block V c t) (bias_block V c t)
    (degree_block V c t p _ rfl)

/-! ## The output blocks tile their arrays -/

/-- An index of the first output is in point `t`'s block iff each coordinate is in the block's range on its axis. -/
theorem mem_blk4 (t : Fin cfg0.N) (i : S50000x128.Idx) :
    i ∈ ((cfg0.win 4).blk t).view.set ↔ ∀ a : Fin 2, win0_4.index t a * S5000x128.size a ≤ (i a).val ∧ (i a).val < win0_4.index t a * S5000x128.size a + S5000x128.size a := by
  show i ∈ ((View.whole main_v10_0).slice (win0_4.rect t)).set ↔ _
  rw [View.set_slice_whole, Rect.mem_set_unit]
  exact Iff.rfl

/-- The same for the second output. -/
theorem mem_blk5 (t : Fin cfg0.N) (i : S50000x128.Idx) :
    i ∈ ((cfg0.win 5).blk t).view.set ↔ ∀ a : Fin 2, win0_5.index t a * S5000x128.size a ≤ (i a).val ∧ (i a).val < win0_5.index t a * S5000x128.size a + S5000x128.size a := by
  show i ∈ ((View.whole main_v10_1).slice (win0_5.rect t)).set ↔ _
  rw [View.set_slice_whole, Rect.mem_set_unit]
  exact Iff.rfl

/-- Row `r` of the first output is in the block of point `r / 5000`. -/
theorem cover4 (i : S50000x128.Idx) : ∃ t : Fin cfg0.N, (cfg0.win 4).flush t = true ∧ i ∈ ((cfg0.win 4).blk t).view.set := by
  have hi0 : (i 0).val < 50000 := (i 0).isLt
  have hi1 : (i 1).val < 128 := (i 1).isLt
  refine ⟨⟨(i 0).val / 5000, by show (i 0).val / 5000 < 10; omega⟩, (flush_facts _).1, ?_⟩
  rw [mem_blk4]
  obtain ⟨-, -, -, -, -, -, -, -, e40, e41, -⟩ := idx_facts ⟨(i 0).val / 5000, by show (i 0).val / 5000 < 10; omega⟩
  intro a
  match a with
  | ⟨0, _⟩ =>
    show win0_4.index _ (0 : Fin 2) * 5000 ≤ (i 0).val ∧ (i 0).val < win0_4.index _ (0 : Fin 2) * 5000 + 5000
    rw [e40]; show (i 0).val / 5000 * 5000 ≤ (i 0).val ∧ (i 0).val < (i 0).val / 5000 * 5000 + 5000; omega
  | ⟨1, _⟩ =>
    show win0_4.index _ (1 : Fin 2) * 128 ≤ (i 1).val ∧ (i 1).val < win0_4.index _ (1 : Fin 2) * 128 + 128
    rw [e41]; omega

/-- Row `r` of the second output is in the block of point `r / 5000`. -/
theorem cover5 (i : S50000x128.Idx) : ∃ t : Fin cfg0.N, (cfg0.win 5).flush t = true ∧ i ∈ ((cfg0.win 5).blk t).view.set := by
  have hi0 : (i 0).val < 50000 := (i 0).isLt
  have hi1 : (i 1).val < 128 := (i 1).isLt
  refine ⟨⟨(i 0).val / 5000, by show (i 0).val / 5000 < 10; omega⟩, (flush_facts _).2, ?_⟩
  rw [mem_blk5]
  obtain ⟨-, -, -, -, -, -, -, -, -, -, e50, e51⟩ := idx_facts ⟨(i 0).val / 5000, by show (i 0).val / 5000 < 10; omega⟩
  intro a
  match a with
  | ⟨0, _⟩ =>
    show win0_5.index _ (0 : Fin 2) * 5000 ≤ (i 0).val ∧ (i 0).val < win0_5.index _ (0 : Fin 2) * 5000 + 5000
    rw [e50]; show (i 0).val / 5000 * 5000 ≤ (i 0).val ∧ (i 0).val < (i 0).val / 5000 * 5000 + 5000; omega
  | ⟨1, _⟩ =>
    show win0_5.index _ (1 : Fin 2) * 128 ≤ (i 1).val ∧ (i 1).val < win0_5.index _ (1 : Fin 2) * 128 + 128
    rw [e51]; omega

/-! ## The two output arrays after the region -/

/-- The first output ends holding the dense layer of the arrays as the region found them. -/
theorem support_final (c : Dev nD) :
    (dat0 V c).arrAt 4 cfg0.N = Cert.Spec.linearT (V c main_arg0) (V c main_v8) (V c main_v9) :=
  (dat0 V c).arrAt_eq_of_cover 4 (Cert.Spec.linearT (V c main_arg0) (V c main_v8) (V c main_v9))
    (fun t _ => support_flushed V c t) cover4

/-- The second output ends holding the dense layer scaled row-wise by the degree column. -/
theorem h_final (c : Dev nD) :
    (dat0 V c).arrAt 5 cfg0.N
      = Cert.Spec.scaleT (Cert.Spec.linearT (V c main_arg0) (V c main_v8) (V c main_v9)) (V c main_v7) :=
  (dat0 V c).arrAt_eq_of_cover 5 (Cert.Spec.scaleT (Cert.Spec.linearT (V c main_arg0) (V c main_v8) (V c main_v9)) (V c main_v7))
    (fun t _ => h_flushed V c t) cover5

end Cert.KernelIdeal.Region0

end
-- ==== Proof.Region1.lean ====
/-
  The second region (the residual blend) over the extended reals, for any contents of the arrays at its entry.

  The region walks ten row blocks of 5000 rows. At each it reads the same block of three [50000,128] arrays
  (the aggregate, the scaled features, the dense layer's output) and of the one-column degree factor, and stores
      (((agg + h) · d) · 1/2 + s) · 2/3
  entry by entry, the column broadcast along the 128 features. The block index of every window at point `t` is
  `(t, 0)`, so row `p` of a block is row `5000 t + p` of its array, the ten blocks tile the output, and the
  output array ends holding `Cert.Spec.blendT` of the four arrays.
-/
import proofs.«118223_j9852654977352_1_alg».proof.Proof.Gen.KernelIdeal.Frame
import proofs.«118223_j9852654977352_1_alg».proof.Proof.Spec
import Idealize.ShloMosaic.Lib.Pipeline.Value
import Idealize.ShloMosaic.Lib.ValueIdx
import Idealize.ShloMosaic.PureOps.Ideal.Laws
import Idealize.ShloMosaic.PureOps.IdealRules

set_option maxRecDepth 16384

noncomputable section

namespace Cert.KernelIdeal.Region1

open Cert.KernelIdeal Cert.KernelIdeal.Gen Idealize.ShloMosaic Idealize.ShloMosaic.TcCoe Idealize.SL.Sem
open Idealize.ShloMosaic.Pipeline (Dat Cfg Window)
open Idealize.ShloMosaic.ValueIdx

variable (V : (c : Dev nD) → (b : Ref sig .tc) → Buf (Elt Ideal) ((c : Thread nD τ).loc b))

/-- The zero offsets of a whole-block access, as the constant function. -/
theorem zero_offsets : (![0, 0] : Fin 2 → Nat) = fun _ => 0 := funext fun a => by fin_cases a <;> rfl

/-- The constant named two thirds denotes the rational 2/3 on the extended reals. -/
theorem two_thirds :
    Named.named (F := Ideal) Cert.KernelIdeal.κ "c_2_3" (φ := .f32) 0x3F2AAAAB#32 = ((2 / 3 : ℝ) : EReal) :=
  IdealRules.named_const.ideal_named_scalar _ _ _ _ rfl

/-- A one-column block broadcast along the features, read at row `p` and feature `q`, is the column's entry of row `p`. -/
theorem column_apply (d : FVec Ideal S5000x1 .f32) (p : Fin 5000) (q : Fin 128) :
    broadcastTo S5000x128 d broadcasts_S5000x1_S5000x128 (ix2 p q) = d (ix2 p 0) := by
  refine broadcastTo_apply d _ (ix2 p q) (ix2 p 0) fun a => ?_
  match a with
  | ⟨0, _⟩ => rfl
  | ⟨1, _⟩ => rfl

/-- The body's arithmetic at row `p` and feature `q` of a block: the sum of the first two blocks scaled by the row's
    entry of the column, halved, added to the last block, and multiplied by two thirds. -/
theorem payload_apply (a h s : FVec Ideal S5000x128 .f32) (d : FVec Ideal S5000x1 .f32) (p : Fin 5000) (q : Fin 128) :
    k1_pay1 (F := Ideal) a h d s (ix2 p q)
      = (((a (ix2 p q) + h (ix2 p q)) * d (ix2 p 0)) * Cert.Spec.half + s (ix2 p q)) * ((2 / 3 : ℝ) : EReal) := by
  unfold k1_pay1
  simp only [shapeCast_self]
  rw [mulf_apply, addf_apply, mulf_apply, mulf_apply, addf_apply, broadcast_apply, broadcast_apply, column_apply,
    two_thirds]
  rfl

/-- The body at one entry of a block, against the blend of four whole arrays at an index `i`: it is enough that each
    block's entry read is the array's entry at `i` (the column's at row `i 0`). -/
theorem blend_point (A H S : FVec Ideal Cert.Spec.SNxD .f32) (D : FVec Ideal Cert.Spec.SNx1 .f32)
    (a h s : FVec Ideal S5000x128 .f32) (d : FVec Ideal S5000x1 .f32) (p : Fin 5000) (q : Fin 128)
    (i : Cert.Spec.SNxD.Idx)
    (ha : a (ix2 p q) = A i) (hh : h (ix2 p q) = H i) (hs : s (ix2 p q) = S i)
    (hd : d (ix2 p 0) = D (ix2 (n0 := 50000) (n1 := 1) (i 0) 0)) :
    k1_pay1 (F := Ideal) a h d s (ix2 p q) = Cert.Spec.blendT A H S D i := by
  rw [payload_apply, ha, hh, hs, hd]
  rfl

/-- The printed index maps, decided over the ten grid points: at point `t` every window's block index is `(t, 0)`. -/
theorem index_facts : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = t.val ∧ win1_2.index t (1 : Fin 2) = 0
    ∧ win1_3.index t (0 : Fin 2) = t.val ∧ win1_3.index t (1 : Fin 2) = 0
    ∧ win1_4.index t (0 : Fin 2) = t.val ∧ win1_4.index t (1 : Fin 2) = 0 :=
  (by decide +kernel : ∀ t : Fin grid1.N, _)

/-- What point `t` writes back is block `t` of the blend of the four arrays as the region finds them: row `p` of
    every block at point `t` is row `5000 t + p` of its array. -/
theorem flushed_eq (c : Dev nD) (t : Fin cfg1.N) :
    (dat1 V c).flushed 4 t = ((cfg1.win 4).blk t).view.read (Elt Ideal)
      (Cert.Spec.blendT (V c main_v23) (V c main_v10_1) (V c main_v10_0) (V c main_v7)) := by
  show (cfg1.win 4).cut (grid1.coords t) ((dat1 V c).after 4 t) = _
  rw [after1_4]
  unfold out1_4
  rw [View.canon_unit_zero zero_offsets]
  simp only [View.ld_unit_zero (S := S5000x128) zero_offsets, View.ld_unit_zero (S := S5000x1) zero_offsets]
  obtain ⟨e00, e01, e10, e11, e20, e21, e30, e31, e40, e41⟩ := index_facts t
  refine funext fun (j : S5000x128.Idx) => ?_
  obtain ⟨p, q, rfl⟩ : ∃ (p : Fin 5000) (q : Fin 128), j = ix2 p q := ⟨j 0, j 1, eq_ix2 j⟩
  have hp : p.val < 5000 := p.isLt
  have hq : q.val < 128 := q.isLt
  refine blend_point _ _ _ _ _ _ _ _ p q (((cfg1.win 4).blk t).view.emb (ix2 p q)) ?_ ?_ ?_ ?_
  · show V c main_v23 (((cfg1.win 0).blk t).view.emb (ix2 p q)) = V c main_v23 (((cfg1.win 4).blk t).view.emb (ix2 p q))
    refine congrArg _ (funext fun a => Fin.ext ?_)
    match a with
    | ⟨0, _⟩ => show win1_0.index t (0 : Fin 2) * 5000 + 1 * p.val = win1_4.index t (0 : Fin 2) * 5000 + 1 * p.val; omega
    | ⟨1, _⟩ => show win1_0.index t (1 : Fin 2) * 128 + 1 * q.val = win1_4.index t (1 : Fin 2) * 128 + 1 * q.val; omega
  · show V c main_v10_1 (((cfg1.win 1).blk t).view.emb (ix2 p q)) = V c main_v10_1 (((cfg1.win 4).blk t).view.emb (ix2 p q))
    refine congrArg _ (funext fun a => Fin.ext ?_)
    match a with
    | ⟨0, _⟩ => show win1_1.index t (0 : Fin 2) * 5000 + 1 * p.val = win1_4.index t (0 : Fin 2) * 5000 + 1 * p.val; omega
    | ⟨1, _⟩ => show win1_1.index t (1 : Fin 2) * 128 + 1 * q.val = win1_4.index t (1 : Fin 2) * 128 + 1 * q.val; omega
  · show V c main_v10_0 (((cfg1.win 2).blk t).view.emb (ix2 p q)) = V c main_v10_0 (((cfg1.win 4).blk t).view.emb (ix2 p q))
    refine congrArg _ (funext fun a => Fin.ext ?_)
    match a with
    | ⟨0, _⟩ => show win1_2.index t (0 : Fin 2) * 5000 + 1 * p.val = win1_4.index t (0 : Fin 2) * 5000 + 1 * p.val; omega
    | ⟨1, _⟩ => show win1_2.index t (1 : Fin 2) * 128 + 1 * q.val = win1_4.index t (1 : Fin 2) * 128 + 1 * q.val; omega
  · show V c main_v7 (((cfg1.win 3).blk t).view.emb (ix2 p 0))
      = V c main_v7 (ix2 (n0 := 50000) (n1 := 1) ((((cfg1.win 4).blk t).view.emb (ix2 p q)) 0) 0)
    refine congrArg _ (funext fun a => Fin.ext ?_)
    match a with
    | ⟨0, _⟩ => show win1_3.index t (0 : Fin 2) * 5000 + 1 * p.val = win1_4.index t (0 : Fin 2) * 5000 + 1 * p.val; omega
    | ⟨1, _⟩ => show win1_3.index t (1 : Fin 2) * 1 + 1 * 0 = 0; omega

/-- An index of the output array is in point `t`'s block iff each coordinate is in the block's range on its axis. -/
theorem mem_block (t : Fin cfg1.N) (i : S50000x128.Idx) :
    i ∈ ((cfg1.win 4).blk t).view.set
      ↔ ∀ a : Fin 2, win1_4.index t a * S5000x128.size a ≤ (i a).val
          ∧ (i a).val < win1_4.index t a * S5000x128.size a + S5000x128.size a := by
  show i ∈ ((View.whole main_v24).slice (win1_4.rect t)).set ↔ _
  rw [View.set_slice_whole, Rect.mem_set_unit]
  exact Iff.rfl

/-- The ten row blocks cover the output array: row `r` is in the block of point `r / 5000`. -/
theorem covered (i : S50000x128.Idx) :
    ∃ t : Fin cfg1.N, (cfg1.win 4).flush t = true ∧ i ∈ ((cfg1.win 4).blk t).view.set := by
  have hi0 : (i 0).val < 50000 := (i 0).isLt
  have hi1 : (i 1).val < 128 := (i 1).isLt
  have hN : cfg1.N = 10 := N_1
  have ht : (i 0).val / 5000 < cfg1.N := by rw [hN]; omega
  obtain ⟨-, -, -, -, -, -, -, -, e40, e41⟩ := index_facts ⟨(i 0).val / 5000, ht⟩
  refine ⟨⟨(i 0).val / 5000, ht⟩, flush1_4 _, ?_⟩
  rw [mem_block]
  intro a
  match a with
  | ⟨0, _⟩ =>
    show win1_4.index ⟨(i 0).val / 5000, ht⟩ (0 : Fin 2) * 5000 ≤ (i 0).val
      ∧ (i 0).val < win1_4.index ⟨(i 0).val / 5000, ht⟩ (0 : Fin 2) * 5000 + 5000
    rw [e40]; show (i 0).val / 5000 * 5000 ≤ (i 0).val ∧ (i 0).val < (i 0).val / 5000 * 5000 + 5000; omega
  | ⟨1, _⟩ =>
    show win1_4.index ⟨(i 0).val / 5000, ht⟩ (1 : Fin 2) * 128 ≤ (i 1).val
      ∧ (i 1).val < win1_4.index ⟨(i 0).val / 5000, ht⟩ (1 : Fin 2) * 128 + 128
    rw [e41]; omega

/-- The output array after the second region: the blend of the four arrays the region reads, as it finds them. -/
theorem out_final (c : Dev nD) :
    (dat1 V c).arrAt 4 cfg1.N = Cert.Spec.blendT (V c main_v23) (V c main_v10_1) (V c main_v10_0) (V c main_v7) :=
  (dat1 V c).arrAt_eq_of_cover 4 _ (fun t _ => flushed_eq V c t) covered

end Cert.KernelIdeal.Region1

end
-- ==== Proof.RefValue.lean ====
/-
  The reference program, read one host operation at a time, computes `Cert.Spec.layer` of its six arguments.

  Three equalities of whole arrays come first: the dense layer `x · Wᵀ + b`, the degree factor
  `(1 + Σ val)^(-1/2)`, and the row-scaled features `h` together with the edge sum `Σ_e val e · h[col e]`.  The two
  sums over edges are the same operations applied to the same operands on both sides, so they are matched as terms
  and never opened.  The last step is pointwise: the quotient by `3/2` is the product with `2/3` on the extended reals.
-/
import proofs.«118223_j9852654977352_1_alg».proof.Proof.Gen.ReferenceIdeal.Read
import proofs.«118223_j9852654977352_1_alg».proof.Proof.Spec

noncomputable section

namespace Cert.ReferenceIdeal.RefValue

open Cert.ReferenceIdeal Cert.ReferenceIdeal.Gen Idealize.ShloMosaic Idealize.ShloMosaic.TcCoe Idealize.SL.Sem
open Idealize.ShloMosaic.ValueIdx

/-! ## The dense layer -/

/-- Entry `(p, q)` of `x · Wᵀ + b` is `Σ_k x[p, k] · W[q, k] + b[q]`: the transpose swaps the two coordinates of `W`,
    the contraction runs over the second coordinate of `x` and the first of `Wᵀ`, and the bias is read at the column
    through its two broadcasts. -/
theorem linear_eq (x0 : FVec Ideal S50000x128 .f32) (x4 : FVec Ideal S128x128 .f32) (x5 : FVec Ideal S128 .f32) :
    Cert.ReferenceIdeal.Read.val_main_v4 (F := Ideal) x0 x4 x5 = Cert.Spec.linear x0 x4 x5 := by
  funext i
  rw [Read.val_main_v4_apply, Read.val_main_v1_apply, Read.val_main_v3_apply, Read.val_main_v2_apply]
  unfold Cert.Spec.linear
  rw [Ideal.addf_def]
  have hb : Read.idx_main_v2 (Read.idx_main_v3 i) = ix1 (n := 128) (i 1) :=
    funext fun a => Fin.ext (by match a with | ⟨0, _⟩ => rfl)
  rw [hb]
  congr 1
  refine Finset.sum_congr rfl fun k _ => ?_
  rw [Read.val_main_v0_apply]
  have hl : Read.lidx_main_v1 i k = ix2 (n0 := 50000) (n1 := 128) (i 0) k :=
    funext fun a => Fin.ext (by match a with | ⟨0, _⟩ => rfl | ⟨1, _⟩ => rfl)
  have hr : Read.idx_main_v0 (Read.ridx_main_v1 i k) = ix2 (n0 := 128) (n1 := 128) (i 1) k :=
    funext fun a => Fin.ext (by match a with | ⟨0, _⟩ => rfl | ⟨1, _⟩ => rfl)
  rw [hl, hr]

/-! ## The degree factor -/

/-- The dimension numbers of the degree sum, under their two names. -/
theorem degDims_eq : scatter_S50000_S600000x1_S600000_n_0_0_1 = Cert.Spec.degDims := rfl

/-- `(1 + Σ val over the edges into a node)^(-1/2)`: the same scatter-add of the same operands, plus one, raised to
    minus one half; the two sides are one term once the dimension numbers carry one name. -/
theorem degInv_eq (x2 : IVec S600000 32) (x3 : FVec Ideal S600000 .f32) :
    Cert.ReferenceIdeal.Read.val_main_v11 (F := Ideal) x2 x3 = Cert.Spec.degInv x2 x3 := by
  unfold Read.val_main_v11 Read.val_main_v10 Read.val_main_v9 Read.val_main_v8 Read.val_main_v7 Read.val_main_v6
    Read.val_main_v5 Read.val_main_cst Read.val_main_cst_0 Read.val_main_cst_1 Cert.Spec.degInv
  rw [degDims_eq]

/-! ## The scaled features and the sum over edges -/

/-- Row `p` of the dense layer's output times the degree factor of node `p` (read through its two broadcasts). -/
theorem scale_eq (x0 : FVec Ideal S50000x128 .f32) (x2 : IVec S600000 32) (x3 : FVec Ideal S600000 .f32)
    (x4 : FVec Ideal S128x128 .f32) (x5 : FVec Ideal S128 .f32) :
    Cert.ReferenceIdeal.Read.val_main_v14 (F := Ideal) x0 x2 x3 x4 x5
      = Cert.Spec.scale (Cert.Spec.linear x0 x4 x5) (Cert.Spec.degInv x2 x3) := by
  funext i
  rw [Read.val_main_v14_apply, Read.val_main_v13_apply, Read.val_main_v12_apply, linear_eq, degInv_eq]
  unfold Cert.Spec.scale
  rw [Ideal.mulf_def]
  have hd : Read.idx_main_v12 (Read.idx_main_v13 i) = ix1 (n := 50000) (i 0) :=
    funext fun a => Fin.ext (by match a with | ⟨0, _⟩ => rfl)
  rw [hd]

/-- The dimension numbers of the aggregation and of the row gather, under their two names. -/
theorem rowScatter_eq : scatter_S50000x128_S600000x1_S600000x128_1_0_0_1 = Cert.Spec.rowScatter := rfl
theorem rowGather_eq : gather_S50000x128_S600000x1_S600000x128_1_0_n_n_0_1_1128 = Cert.Spec.rowGather := rfl

/-- `Σ_e val e · h[col e]` accumulated into row `row e`, with `h` the scaled features: the gather and the scatter-add
    are applied to the same operands on both sides (`h` is carried as one variable), so the two sides are one term. -/
theorem edgeSum_eq (x0 : FVec Ideal S50000x128 .f32) (x1 x2 : IVec S600000 32) (x3 : FVec Ideal S600000 .f32)
    (x4 : FVec Ideal S128x128 .f32) (x5 : FVec Ideal S128 .f32) :
    Cert.ReferenceIdeal.Read.val_main_v27 (F := Ideal) x0 x1 x2 x3 x4 x5
      = Cert.Spec.edgeSum (Cert.Spec.scale (Cert.Spec.linear x0 x4 x5) (Cert.Spec.degInv x2 x3)) x1 x2 x3 := by
  unfold Read.val_main_v27 Read.val_main_v24 Read.val_main_v22
  rw [scale_eq]
  generalize Cert.Spec.scale (Cert.Spec.linear x0 x4 x5) (Cert.Spec.degInv x2 x3) = h
  unfold Read.val_main_v26 Read.val_main_v25 Read.val_main_v23 Read.val_main_v21 Read.val_main_v20 Read.val_main_v19
    Read.val_main_v18 Read.val_main_v17 Read.val_main_v16 Read.val_main_v15 Read.val_main_cst_3 Read.val_main_c
    Read.val_main_c_2 Cert.Spec.edgeSum
  rw [rowScatter_eq, rowGather_eq]

/-! ## The quotient by one and a half -/

/-- The float pattern `0x3FC00000` (sign 0, exponent 127, mantissa `2^22`) denotes the real `3/2`. -/
theorem ofBits_three_halves : Ideal.ofBits .f32 0x3FC00000#32 = ((3 / 2 : ℝ) : EReal) := by
  simp [Ideal.ofBits, Ideal.ieee, -EReal.coe_mul]; norm_num

/-- On the extended reals `y / 1.5 = y · (2/3)`, at the infinities too: the divisor is a nonzero real, so the
    quotient is the product with its reciprocal, and `1 / (3/2) = 2/3`. -/
theorem div_three_halves (y : EReal) :
    Ideal.div y (Ideal.ofBits .f32 0x3FC00000#32) = y * ((2 / 3 : ℝ) : EReal) := by
  rw [ofBits_three_halves, Ideal.div_coe (by norm_num : (3 / 2 : ℝ) ≠ 0)]
  have h23 : (1 / (3 / 2) : ℝ) = 2 / 3 := by norm_num
  rw [h23]

/-! ## The whole layer -/

/-- At every index the reference's result is `(((agg + h) · dv) · 1/2 + s) / 1.5` with `s` the dense layer, `dv` the
    degree factor of the row, `h` the scaled features and `agg` the edge sum: the residual blend, the quotient read as
    the product with `2/3`. -/
theorem ref_layer (x0 : FVec Ideal S50000x128 .f32) (x1 x2 : IVec S600000 32) (x3 : FVec Ideal S600000 .f32)
    (x4 : FVec Ideal S128x128 .f32) (x5 : FVec Ideal S128 .f32) :
    Cert.ReferenceIdeal.Read.val_main_v36 (F := Ideal) x0 x1 x2 x3 x4 x5 = Cert.Spec.layer x0 x1 x2 x3 x4 x5 := by
  funext i
  rw [Read.val_main_v36_apply, Read.val_main_v35_apply, Read.val_main_cst_5_apply, Read.val_main_v34_apply,
    Read.val_main_v33_apply, Read.val_main_v32_apply, Read.val_main_cst_4_apply, Read.val_main_v31_apply,
    Read.val_main_v30_apply, Read.val_main_v29_apply, Read.val_main_v28_apply, edgeSum_eq, scale_eq, degInv_eq,
    linear_eq]
  unfold Cert.Spec.layer Cert.Spec.blend
  have hd : Read.idx_main_v29 (Read.idx_main_v30 i) = ix1 (n := 50000) (i 0) :=
    funext fun a => Fin.ext (by match a with | ⟨0, _⟩ => rfl)
  rw [hd, Ideal.hostDivf_def, Ideal.addf_def, Ideal.addf_def, Ideal.mulf_def, Ideal.mulf_def, Ideal.ofBits_def,
    Ideal.ofBits_def]
  exact div_three_halves _

end Cert.ReferenceIdeal.RefValue

end
-- ==== Proof.lean ====
/-
  A graph-convolution layer with a residual blend, as a two-region kernel against its jnp reference, over the extended
  reals.

  Both programs compute, for node features `x`, weighted edges `(row, col, val)`, weights `W` and bias `b`,
      s = x · Wᵀ + b,   dv = (1 + Σ_{e : col e = n} val e) ^ (-1/2),   h = s scaled row-wise by dv,
      agg = Σ_e val e · h[col e] accumulated at row e,   result = (((agg + h) · dv) · 1/2 + s) · 2/3
  (`Cert.Spec.layer`).  The kernel computes `s` and `h` in a first region (a matrix product of row blocks against the
  transposed weights, the bias row added, the degree column multiplied in), lets the host gather and accumulate over the
  edges, and blends in a second, pointwise region whose last factor is the constant named two thirds; the reference does
  everything on the host and divides by 3/2 at the end.  At the ideal instance a change of float format is the identity,
  the matrix product into a zero accumulator and the host's `dot_general` are the same sum over the 128 input features,
  and dividing by 3/2 is multiplying by 2/3 on every extended real; the two sums over edges are the same host operations
  applied to equal operands and are never opened.  No step needs the inputs to be finite.

  The modules: `Spec` (the formula), `Layout` (the transposed weights, the bias row and the degree column read at an
  index), `Host` (what the host leaves in the arrays each region reads), `Region0` and `Region1` (what each region
  leaves in its output arrays, for any entry contents), `KernelRun` (the kernel's run with its result named),
  `KernelValue` (the kernel's result is the formula), `RefValue` (the reference's result is the formula).
-/
import proofs.«118223_j9852654977352_1_alg».proof.Defs
import proofs.«118223_j9852654977352_1_alg».proof.Proof.Gen.Kernel
import proofs.«118223_j9852654977352_1_alg».proof.Proof.Gen.Kernel.Skeleton
import proofs.«118223_j9852654977352_1_alg».proof.Proof.Gen.Kernel.Launch
import proofs.«118223_j9852654977352_1_alg».proof.Proof.Gen.Kernel.Points
import proofs.«118223_j9852654977352_1_alg».proof.Proof.Gen.Kernel.Frame
import proofs.«118223_j9852654977352_1_alg».proof.Proof.Gen.KernelIdeal
import proofs.«118223_j9852654977352_1_alg».proof.Proof.Gen.KernelIdeal.Skeleton
import proofs.«118223_j9852654977352_1_alg».proof.Proof.Gen.KernelIdeal.Launch
import proofs.«118223_j9852654977352_1_alg».proof.Proof.Gen.KernelIdeal.Points
import proofs.«118223_j9852654977352_1_alg».proof.Proof.Gen.KernelIdeal.Frame
import proofs.«118223_j9852654977352_1_alg».proof.Proof.Gen.ReferenceIdeal
import proofs.«118223_j9852654977352_1_alg».proof.Proof.Gen.ReferenceIdeal.Run
import proofs.«118223_j9852654977352_1_alg».proof.Proof.Gen.ReferenceIdeal.Read
import proofs.«118223_j9852654977352_1_alg».proof.Proof.Gen.Pre_finite_inputs
import proofs.«118223_j9852654977352_1_alg».proof.Proof.KernelRun
import proofs.«118223_j9852654977352_1_alg».proof.Proof.KernelValue
import proofs.«118223_j9852654977352_1_alg».proof.Proof.Region0
import proofs.«118223_j9852654977352_1_alg».proof.Proof.Region1
import proofs.«118223_j9852654977352_1_alg».proof.Proof.RefValue
import Idealize.ShloMosaic.Adequacy
import Idealize.ShloMosaic.Init

noncomputable section

namespace Cert.Proof

open Idealize.ShloMosaic Idealize.ShloMosaic.TcCoe Idealize.SL.Sem

/-- The word-level kernel runs and leaves its arguments as launched. -/
theorem frame_kernel : Cert.frame_Kernel := fun m ρ _ => Cert.Kernel.Gen.frame m ρ

/-- So does the idealized kernel. -/
theorem frame_kernelIdeal : Cert.frame_KernelIdeal := fun m ρ _ => Cert.KernelIdeal.Gen.frame m ρ

/-- The reference is host operations only: its run, the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- The one rewrite of the ideal pass: the kernel's last factor, the float nearest two thirds, is named and denotes
    two thirds. -/
theorem preserves : Cert.preserves_Kernel_KernelIdeal :=
  IdealRules.named_const.statement Cert.KernelIdeal.κ "c_2_3" .f32 0x3F2AAAAB#32 ((2 / 3 : ℝ) : EReal) rfl

/-- From memories that agree on the six arguments both programs end with the layer's formula of those arguments in
    their result arrays. -/
theorem algebraic : Cert.algebraic_KernelIdeal_ReferenceIdeal := by
  intro m ρ m' ρ' _ hagree
  refine ⟨fun c => Cert.Spec.layer
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4))
      (m ((c.tc : Thread Cert.KernelIdeal.nD Cert.KernelIdeal.τ).loc Cert.KernelIdeal.main_arg5)), ?_, ?_⟩
  · exact (θ_run Cert.KernelIdeal.defs _ _).mono
      (fun r h c => ⟨(h c).1.trans (Cert.KernelIdeal.HostVals.result_of m ρ c
          (Cert.KernelIdeal.Region0.support_final (Cert.KernelIdeal.Gen.V1 m ρ) c)
          (Cert.KernelIdeal.Region0.h_final (Cert.KernelIdeal.Gen.V1 m ρ) c)
          (Cert.KernelIdeal.Region1.out_final (Cert.KernelIdeal.Gen.V3 m ρ) c)), (h c).2⟩)
      (Cert.KernelIdeal.GenRun.run_main m ρ)
  · refine (θ_run Cert.ReferenceIdeal.defs _ _).mono (fun _ h c => ⟨(h c).1.trans ?_, (h c).2⟩)
      (Cert.ReferenceIdeal.Value.run (F := Ideal) m' ρ')
    rw [Cert.ReferenceIdeal.Read.val_main_v36_eq, Cert.ReferenceIdeal.RefValue.ref_layer,
      (hagree c).1, (hagree c).2.1, (hagree c).2.2.1, (hagree c).2.2.2.1, (hagree c).2.2.2.2.1, (hagree c).2.2.2.2.2]

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, preserves, algebraic⟩

end Cert.Proof

end
